-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512x256 : Shape := ⟨3, ![2048, 512, 256]⟩
abbrev S2048 : Shape := ⟨1, ![2048]⟩
abbrev S_ : Shape := ⟨0, ![]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩

class Facts : Prop where
  bcast_S_S2048x512x256 : S_.BroadcastsInDim S2048x512x256 (![] : Fin 0 → Fin S2048x512x256.rank)
  reducesTo_S2048x512x256_S_d0_1_2 : S2048x512x256.ReducesTo [0, 1, 2] S_
  h_S_ : 0 < S_.numel
  bcast_S2048_S2048x1_0 : S2048.BroadcastsInDim S2048x1 (![0] : Fin 1 → Fin S2048x1.rank)
  bcast_S256_S1x256_1 : S256.BroadcastsInDim S1x256 (![1] : Fin 1 → Fin S1x256.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  natLt_1_32 : 1 < 32
  reducesTo_S2048x256_S256_d0 : S2048x256.ReducesTo [0] S256
  bcast_S_S256 : S_.BroadcastsInDim S256 (![] : Fin 0 → Fin S256.rank)
  reducesTo_S256_S_d0 : S256.ReducesTo [0] S_

variable [Facts]

def fn {F : FTy → Type} [FloatOps F] (main_arg0 : FVec F S2048x512x256 .f32) (main_arg1 : IVec S2048 32) : IVec S_ 1 :=
  let main_v0 : FVec F S2048x512x256 .f32 := Host.absf main_arg0
  let main_cst : FVec F S_ .f32 := constant S_ .f32 0x7F800000#32
  let main_v1 : FVec F S2048x512x256 .f32 := broadcastInDim S2048x512x256 ![] bcast_S_S2048x512x256 main_cst
  let main_v2 : IVec S2048x512x256 1 := cmpf .olt main_v0 main_v1
  let main_c : IVec S_ 1 := constantI S_ 1 1#1
  let main_v3 : IVec S_ 1 := (fun x v => Host.reduce IntOp.andi x v reducesTo_S2048x512x256_S_d0_1_2 h_S_) main_v2 main_c
  let main_v4 : IVec S2048x1 32 := broadcastInDim S2048x1 ![0] bcast_S2048_S2048x1_0 main_arg1
  let main_v5 : IVec S256 32 := iotaInDim S256 32 0
  let main_v6 : IVec S1x256 32 := broadcastInDim S1x256 ![1] bcast_S256_S1x256_1 main_v5
  let main_v7 : IVec S2048x256 32 := broadcastInDim S2048x256 ![0, 1] bcast_S2048x1_S2048x256_0_1 main_v4
  let main_v8 : IVec S2048x256 32 := broadcastInDim S2048x256 ![0, 1] bcast_S1x256_S2048x256_0_1 main_v6
  let main_v9 : IVec S2048x256 1 := cmpi .eq main_v7 main_v8
  let main_v10 : IVec S2048x256 32 := (extui 32 · natLt_1_32) main_v9
  let main_c_0 : IVec S_ 32 := constantI S_ 32 0#32
  let main_v11 : IVec S256 32 := (fun x v => Host.reduce IntOp.addi x v reducesTo_S2048x256_S256_d0 h_S_) main_v10 main_c_0
  let main_c_1 : IVec S_ 32 := constantI S_ 32 1#32
  let main_v12 : IVec S256 32 := broadcastInDim S256 ![] bcast_S_S256 main_c_1
  let main_v13 : IVec S256 1 := cmpi .sge main_v11 main_v12
  let main_c_2 : IVec S_ 1 := constantI S_ 1 1#1
  let main_v14 : IVec S_ 1 := (fun x v => Host.reduce IntOp.andi x v reducesTo_S256_S_d0 h_S_) main_v13 main_c_2
  let main_v15 : IVec S_ 1 := andi main_v3 main_v14
  main_v15
-- ==== Kernel.lean ====
abbrev S2048x512x256 : Shape := ⟨3, ![2048, 512, 256]⟩
abbrev S2048 : Shape := ⟨1, ![2048]⟩
abbrev S256 : Shape := ⟨1, ![256]⟩
abbrev S2048x1 : Shape := ⟨2, ![2048, 1]⟩
abbrev S1x256 : Shape := ⟨2, ![1, 256]⟩
abbrev S2048x256 : Shape := ⟨2, ![2048, 256]⟩
abbrev S2x256x256 : Shape := ⟨3, ![2, 256, 256]⟩
abbrev S32x512x256 : Shape := ⟨3, ![32, 512, 256]⟩
abbrev S32x256 : Shape := ⟨2, ![32, 256]⟩
abbrev S1x256x256 : Shape := ⟨3, ![1, 256, 256]⟩
abbrev S256x256 : Shape := ⟨2, ![256, 256]⟩
abbrev S32x64x256 : Shape := ⟨3, ![32, 64, 256]⟩
abbrev S_ : Shape := ⟨0, ![]⟩
abbrev S256x1 : Shape := ⟨2, ![256, 1]⟩

abbrev nBuf : Space → Nat
  | .hbm => 27
  | .vmem => 6
  | .smem => 0
  | _ => 0

abbrev bufTy : (tb : Table) → Fin (tcTables nBuf tb) → BufTy
  | .hbm, ⟨0, _⟩ => ⟨S2048x512x256, .f32⟩
  | .hbm, ⟨1, _⟩ => ⟨S2048, .i32⟩
  | .hbm, ⟨2, _⟩ => ⟨S256, .i32⟩
  | .hbm, ⟨3, _⟩ => ⟨S2048x1, .i32⟩
  | .hbm, ⟨4, _⟩ => ⟨S1x256, .i32⟩
  | .hbm, ⟨5, _⟩ => ⟨S2048x256, .i32⟩
  | .hbm, ⟨6, _⟩ => ⟨S2048x256, .i32⟩
  | .hbm, ⟨7, _⟩ => ⟨S2048x256, .i1⟩
  | .hbm, ⟨8, _⟩ => ⟨S2048x256, .f32⟩
  | .hbm, ⟨9, _⟩ => ⟨S2x256x256, .f32⟩
  | .hbm, ⟨10, _⟩ => ⟨S_, .f32⟩
  | .hbm, ⟨11, _⟩ => ⟨S256x256, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S256, .f32⟩
  | .hbm, ⟨16, _⟩ => ⟨S2048x1, .i32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256x1, .f32⟩
  | .hbm, ⟨25, _⟩ => ⟨S256x256, .f32⟩
  | .hbm, ⟨26, _⟩ => ⟨S256x256, .f32⟩
  | .local _ .vmem, ⟨0, _⟩ => ⟨S32x512x256, .f32⟩
  | .local _ .vmem, ⟨1, _⟩ => ⟨S32x512x256, .f32⟩
  | .local _ .vmem, ⟨2, _⟩ => ⟨S32x256, .f32⟩
  | .local _ .vmem, ⟨3, _⟩ => ⟨S32x256, .f32⟩
  | .local _ .vmem, ⟨4, _⟩ => ⟨S1x256x256, .f32⟩
  | .local _ .vmem, ⟨5, _⟩ => ⟨S1x256x256, .f32⟩
  | _, _ => ⟨S2048x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c64_i32 : BitVec 32 := 64#32
  let v15 : BitVec 32 := Scalar.muli arg5 c64_i32
  v15
def k0_off1 (k0_t1 : Fin k0_t1_loop.trips) : Fin 3 → Nat :=
  let c0_11 : Index := 0#32
  let c0_i32_1 : BitVec 32 := 0#32
  let c1_i32 : BitVec 32 := 1#32
  let arg5 : BitVec 32 := Scf.iv c0_i32_1 c1_i32 k0_t1
  let c64_i32 : BitVec 32 := 64#32
  let v15 : BitVec 32 := Scalar.muli arg5 c64_i32
  let v16 : BitVec 32 := v15
  let v17 : Index := Scalar.indexCast v16
  let c0_12 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S2048_S2048x1_0 : S2048.BroadcastsInDim S2048x1 (![0] : Fin 1 → Fin S2048x1.rank)
  bcast_S256_S1x256_1 : S256.BroadcastsInDim S1x256 (![1] : Fin 1 → Fin S1x256.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  h_S32x64x256 : 0 < S32x64x256.numel
  reduces_S32x64x256_S32x256 : S32x64x256.Reduces [1] S32x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  reducesTo_S2x256x256_S256x256_d0 : S2x256x256.ReducesTo [0] S256x256
  h_S_ : 0 < S_.numel
  bcast_S_S2048 : S_.BroadcastsInDim S2048 (![] : Fin 0 → Fin S2048.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  dot_S32x256_S32x256_S256x256_0_0_1_1_n_n_wf : DotDims.WF S32x256 S32x256 S256x256 [0] [0] [1] [1] [] []
  scatter_S256_S2048x1_S2048_n_0_0_1_wf : ScatterDims.WF S256 S2048x1 S2048 [] [0] [0] 1
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S32x64x256.size a ≤ S32x512x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x256.size a ≤ S2048x512x256.size a
  hwx0_0 : ∀ i : grid0.Coords, EltTy.bits .f32 = 32 ∨ (Rect.block (s := S2048x512x256) S32x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S2048x256.size a
  hwx0_1 : ∀ i : grid0.Coords, EltTy.bits .f32 = 32 ∨ (Rect.block (s := S2048x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)

variable [Facts₀]

def dot_S32x256_S32x256_S256x256_0_0_1_1_n_n : DotDims S32x256 S32x256 S256x256 where
  lhsContracting := [0]
  rhsContracting := [0]
  lhsNonContracting := [1]
  rhsNonContracting := [1]
  lhsBatch := []
  rhsBatch := []
  wf := dot_S32x256_S32x256_S256x256_0_0_1_1_n_n_wf
def scatter_S256_S2048x1_S2048_n_0_0_1 : ScatterDims S256 S2048x1 S2048 where
  updateWindowDims := []
  insertedWindowDims := [0]
  scatterDimsToOperandDims := [0]
  indexVectorDim := 1
  wf := scatter_S256_S2048x1_S2048_n_0_0_1_wf

abbrev win0_0 : Pipeline.Window sig grid0 :=
  Pipeline.Window.ofSpec (Memref.whole main_arg0) S32x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x512x256 : Shape := ⟨3, ![2048, 512, 256]⟩
abbrev S2048 : Shape := ⟨1, ![2048]⟩
abbrev S1048576x256 : Shape := ⟨2, ![1048576, 256]⟩
abbrev S2048x512 : Shape := ⟨2, ![2048, 512]⟩
abbrev S1048576 : Shape := ⟨1, ![1048576]⟩
abbrev S_ : Shape := ⟨0, ![]⟩
abbrev S256x256 : Shape := ⟨2, ![256, 256]⟩
abbrev S1048576x1 : Shape := ⟨2, ![1048576, 1]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x512x256, .f32⟩
  | .hbm, ⟨1, _⟩ => ⟨S2048, .i32⟩
  | .hbm, ⟨2, _⟩ => ⟨S1048576x256, .f32⟩
  | .hbm, ⟨3, _⟩ => ⟨S2048x512, .i32⟩
  | .hbm, ⟨4, _⟩ => ⟨S1048576, .i32⟩
  | .hbm, ⟨5, _⟩ => ⟨S_, .f32⟩
  | .hbm, ⟨6, _⟩ => ⟨S256x256, .f32⟩
  | .hbm, ⟨7, _⟩ => ⟨S1048576x1, .i32⟩
  | .hbm, ⟨8, _⟩ => ⟨S256x256, .f32⟩
  | .hbm, ⟨9, _⟩ => ⟨S_, .f32⟩
  | .hbm, ⟨10, _⟩ => ⟨S1048576, .f32⟩
  | .hbm, ⟨11, _⟩ => ⟨S_, .f32⟩
  | .hbm, ⟨12, _⟩ => ⟨S256, .f32⟩
  | .hbm, ⟨13, _⟩ => ⟨S1048576x1, .i32⟩
  | .hbm, ⟨14, _⟩ => ⟨S256, .f32⟩
  | .hbm, ⟨15, _⟩ => ⟨S256x1, .f32⟩
  | .hbm, ⟨16, _⟩ => ⟨S256x256, .f32⟩
  | .hbm, ⟨17, _⟩ => ⟨S256x256, .f32⟩
  | _, _ => ⟨S2048x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S2048x512x256_S1048576x256 : S2048x512x256.ShapeCasts S1048576x256
  bcast_S2048_S2048x512_0 : S2048.BroadcastsInDim S2048x512 (![0] : Fin 1 → Fin S2048x512.rank)
  shapeCasts_S2048x512_S1048576 : S2048x512.ShapeCasts S1048576
  bcast_S_S256x256 : S_.BroadcastsInDim S256x256 (![] : Fin 0 → Fin S256x256.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  scatter_S256x256_S1048576x1_S1048576x256_1_0_0_1_wf : ScatterDims.WF S256x256 S1048576x1 S1048576x256 [1] [0] [0] 1
  scatter_S256_S1048576x1_S1048576_n_0_0_1_wf : ScatterDims.WF S256 S1048576x1 S1048576 [] [0] [0] 1

variable [Facts₀]

def scatter_S256x256_S1048576x1_S1048576x256_1_0_0_1 : ScatterDims S256x256 S1048576x1 S1048576x256 where
  updateWindowDims := [1]
  insertedWindowDims := [0]
  scatterDimsToOperandDims := [0]
  indexVectorDim := 1
  wf := scatter_S256x256_S1048576x1_S1048576x256_1_0_0_1_wf
def scatter_S256_S1048576x1_S1048576_n_0_0_1 : ScatterDims S256 S1048576x1 S1048576 where
  updateWindowDims := []
  insertedWindowDims := [0]
  scatterDimsToOperandDims := [0]
  indexVectorDim := 1
  wf := scatter_S256_S1048576x1_S1048576_n_0_0_1_wf

class Facts : Prop extends Facts₀ where

variable [Facts]
-- ==== Proof.KBody.lean ====
/-
  What one grid point's body leaves in the output block, as a value.

  At a grid point the body holds a block X of 32 proteins (32 × 512 × 256), the matching 32 rows H of the one-hot
  selection matrix (32 × 256), and the output block (256 × 256, kept as 1 × 256 × 256). A counted loop of eight trips
  adds, trip k, the sum over tokens 64k … 64k+63 of each protein to a running [32 × 256] array of token sums that starts
  at zero; the block then receives  old + Hᵀ · sums,  where "old" is zero at the first point of a core's row of the
  grid (the body stores zeros and reads them back) and what the point before left otherwise.
-/
import proofs.«420036_j39754217292264_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]

/-- Chunk k of a block of embeddings: tokens 64k … 64k+63 of each of its 32 proteins. -/
abbrev chunk (X : Vec F S32x512x256 .f32) (k : Fin k0_t1_loop.trips) : Vec F S32x64x256 .f32 :=
  View.ld X (Rect.unit (s := S32x512x256) (k0_off1 k) S32x64x256.size (k0_off1_inb k))

/-- One trip of the loop adds the chunk's token sums to the running sums: the trip's yield, read off its run. -/
theorem trip_eq (𝒱 : Variants) (c : Dev nD) (bd : Option 𝒱.V) (i : grid0.Coords)
    (arg2 : Memref sig .tc .vmem S32x512x256 .f32) (harg2 : arg2.IsWhole) (arg3 : Memref sig .tc .vmem S32x256 .f32)
    (harg3 : arg3.IsWhole) (arg4 : Memref sig .tc .vmem S1x256x256 .f32) (harg4 : arg4.IsWhole)
    (x0 : Vec F S32x512x256 .f32) (k : Fin k0_t1_loop.trips) (acc : FVec F S32x256 .f32) :
    tripR_k0_t1 (F := F) 𝒱 c bd i arg2 harg2 arg3 harg3 arg4 harg4 (harg2.unread x0) k acc = k0_pay3 acc (chunk x0 k) := by
  unfold tripR_k0_t1 trip_k0_t1
  dsimp only
  simp only [View.readAt_eq_ld, harg2.read_unread]

/-- The running token sums before trip k: zero, then one chunk's sums added per trip. -/
def sumsBefore (X : Vec F S32x512x256 .f32) : ℕ → FVec F S32x256 .f32
  | 0 => k0_pay2
  | k + 1 => if h : k < k0_t1_loop.trips then k0_pay3 (sumsBefore X k) (chunk X ⟨k, h⟩) else sumsBefore X k

/-- The value the loop carries before trip k is the running token sums. -/
theorem carried_eq (𝒱 : Variants) (c : Dev nD) (bd : Option 𝒱.V) (i : grid0.Coords)
    (arg2 : Memref sig .tc .vmem S32x512x256 .f32) (harg2 : arg2.IsWhole) (arg3 : Memref sig .tc .vmem S32x256 .f32)
    (harg3 : arg3.IsWhole) (arg4 : Memref sig .tc .vmem S1x256x256 .f32) (harg4 : arg4.IsWhole)
    (x0 : Vec F S32x512x256 .f32) :
    ∀ k : ℕ, st_k0_t1 (F := F) 𝒱 c bd i arg2 harg2 arg3 harg3 arg4 harg4 (harg2.unread x0) k0_pay2 k = sumsBefore x0 k
  | 0 => rfl
  | k + 1 => by
    rw [st_k0_t1.eq_2, sumsBefore]
    unfold st_k0_t1Step
    by_cases h : k < k0_t1_loop.trips
    · rw [dif_pos h, dif_pos h, trip_eq, carried_eq 𝒱 c bd i arg2 harg2 arg3 harg3 arg4 harg4 x0 k]
    · rw [dif_neg h, dif_neg h, carried_eq 𝒱 c bd i arg2 harg2 arg3 harg3 arg4 harg4 x0 k]

/-- The token sums of a block after the loop's eight trips. -/
abbrev tokenSums (X : Vec F S32x512x256 .f32) : FVec F S32x256 .f32 := sumsBefore X k0_t1_loop.trips

theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its core's row: the output block holding xo ends at the update of xo. -/
theorem out_B (c : Dev nD) (i : grid0.Coords) (arg2 : Memref sig .tc .vmem S32x512x256 .f32) (harg2 : arg2.IsWhole)
    (arg3 : Memref sig .tc .vmem S32x256 .f32) (harg3 : arg3.IsWhole) (arg4 : Memref sig .tc .vmem S1x256x256 .f32)
    (harg4 : arg4.IsWhole) (hc0 : ¬cond0_0 i)
    (x0 : Vec F S32x512x256 .f32) (x1 : Vec F S32x256 .f32) (xo2 : Vec F S1x256x256 .f32) :
    out0_B_2 c i arg2 harg2 arg3 harg3 arg4 harg4 hc0 x0 x1 xo2 = k0_pay4 (tokenSums x0) x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz3]
  simp only [View.readAt_eq_ld, harg3.read_unread, harg4.read_unread, View.ld_unit_zero (S := S32x256) hz2,
    View.ld_unit_zero (S := S1x256x256) hz3, carried_eq]

/-- The first point of a core's row: the block is zeroed, read back, and ends at the update of zero. -/
theorem out_A (c : Dev nD) (i : grid0.Coords) (arg2 : Memref sig .tc .vmem S32x512x256 .f32) (harg2 : arg2.IsWhole)
    (arg3 : Memref sig .tc .vmem S32x256 .f32) (harg3 : arg3.IsWhole) (arg4 : Memref sig .tc .vmem S1x256x256 .f32)
    (harg4 : arg4.IsWhole) (hc0 : cond0_0 i)
    (x0 : Vec F S32x512x256 .f32) (x1 : Vec F S32x256 .f32) :
    out0_A_2 c i arg2 harg2 arg3 harg3 arg4 harg4 hc0 x0 x1 = k0_pay4 (tokenSums x0) x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x256x256) hz3]
  simp only [View.readAt_eq_ld, harg3.read_unread, View.ld_unit_zero (S := S32x256) hz2,
    View.readCov_unit_zero (S := S1x256x256) _ hz3, carried_eq]

end Cert.KernelIdeal.PoolValue

end
-- ==== Proof.KAcc.lean ====
/-
  The output block after each grid point, as the running accumulation.

  The 64 grid points run in order; point t = 32·core + j holds block t of the embeddings and of the selection matrix.
  At j = 0 the block of the output is reset and receives that point's update of zero; at every other point it receives
  the point's update of what the point before left. So after point n the block holds the updates of points
  32·(n / 32) … n applied, in order, to zero.
-/
import proofs.«420036_j39754217292264_3_alg».proof.Proof.KBody
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]

variable (m : (ℓ : Loc nD τ sig) → Buf (Elt F) ℓ)

/-- Block t of the embeddings and of the selection matrix, as the region finds them. -/
abbrev xblk (c : Dev nD) (t : Fin cfg0.N) : Vec F S32x512x256 .f32 := iblk m c 0 t
abbrev hblk (c : Dev nD) (t : Fin cfg0.N) : Vec F S32x256 .f32 := iblk m c 1 t

/-- Point t's update of an output block xo: xo plus the selected token sums of the point's proteins. -/
abbrev step (c : Dev nD) (t : Fin cfg0.N) (xo : Vec F S1x256x256 .f32) : Vec F S1x256x256 .f32 :=
  k0_pay4 (tokenSums (xblk m c t)) (hblk m c t) xo

/-- The output block after point n: reset at the points that are multiples of 32, updated at every point. -/
def accAt (c : Dev nD) : (n : ℕ) → n < cfg0.N → Vec F S1x256x256 .f32
  | 0, h => step m c ⟨0, h⟩ (k0_pay1 (F := F))
  | n + 1, h =>
    if (n + 1) % 32 = 0 then step m c ⟨n + 1, h⟩ (k0_pay1 (F := F))
    else step m c ⟨n + 1, h⟩ (accAt c n (Nat.lt_of_succ_lt h))

theorem accAt_reset (c : Dev nD) (n : ℕ) (h : n + 1 < cfg0.N) (h0 : (n + 1) % 32 = 0) :
    accAt m c (n + 1) h = step m c ⟨n + 1, h⟩ (k0_pay1 (F := F)) := by
  rw [accAt, if_pos h0]

theorem accAt_update (c : Dev nD) (n : ℕ) (h : n + 1 < cfg0.N) (h0 : ¬(n + 1) % 32 = 0) :
    accAt m c (n + 1) h = step m c ⟨n + 1, h⟩ (accAt m c n (Nat.lt_of_succ_lt h)) := by
  rw [accAt, if_neg h0]

/-- What the frame's run leaves in the output's staging buffer after point n is that accumulation. -/
theorem outsAt_eq (c : Dev nD) : ∀ (n : ℕ) (h : n < cfg0.N), outsAt0 m c n h = accAt m c n h
  | 0, h => (outsAt0_A m c ⟨0, h⟩ rfl).trans (out_A ..)
  | n + 1, h => by
    by_cases h0 : (n + 1) % 32 = 0
    · rw [outsAt0_A m c ⟨n + 1, h⟩ h0, out_A, accAt_reset m c n h h0]
    · rw [outsAt0_B m c ⟨n + 1, h⟩ h0, out_B, accAt_update m c n h h0]
      show step m c ⟨n + 1, h⟩ (outsAt0 m c n _) = step m c ⟨n + 1, h⟩ (accAt m c n _)
      rw [outsAt_eq c n]

end Cert.KernelIdeal.PoolValue

end
-- ==== Proof.LibMatmulTN.lean ====
/-
  A matrix product that contracts the FIRST axis of both operands, into a zero accumulator, read at an index.

  For a k×m matrix A and a k×n matrix B, the product Aᵀ · B accumulated into zeros holds, at row a and column b, the
  sum over the contracted coordinate c of A (c, a) · B (c, b). The dimension numbers are any record whose lists say
  so: both operands contract axis 0, keep axis 1, and have no batch axis. The contraction index has one axis of extent
  k; the sum over it is re-indexed by Fin k.
-/
import Idealize.ShloMosaic.PureOps.Ideal
import Idealize.ShloMosaic.PureOps.Ideal.Laws
import Idealize.ShloMosaic.Lib.ValueIdx

noncomputable section

namespace Cert.LibMatmulTN

open Idealize.ShloMosaic Idealize.ShloMosaic.ValueIdx

section
variable {k m n : Nat} (d : DotDims ⟨2, ![k, m]⟩ ⟨2, ![k, n]⟩ ⟨2, ![m, n]⟩)

/-- Two positions of an index that are equal as numbers hold the same coordinate. -/
theorem coord_congr {s : Shape} (j : s.Idx) (p q : Nat) (hp : p < s.rank) (hq : q < s.rank) (h : p = q) :
    (j ⟨p, hp⟩).val = (j ⟨q, hq⟩).val := by subst h; rfl

/-- The contraction shape has one axis. -/
theorem contr_rank (hlc : d.lhsContracting = [0]) : d.contr.rank = 1 := by rw [d.rank_contr, hlc]; rfl

/-- Its extent is k. -/
theorem contr_size (hlc : d.lhsContracting = [0]) : d.contr.size ⟨0, by rw [contr_rank d hlc]; exact Nat.one_pos⟩ = k := by
  have hp : 0 < d.lhsContracting.length := by rw [hlc]; exact Nat.one_pos
  rw [d.size_contr 0 hp]
  have : d.lhsContracting[0] = (0 : Fin 2) := by simp [hlc]
  rw [this]; rfl

/-- The left operand's index at result index (a, b) and contraction coordinate c is (c, a). -/
theorem lhsIdx_eq (hlc : d.lhsContracting = [0]) (hln : d.lhsNonContracting = [1]) (hlb : d.lhsBatch = [])
    (a : Fin m) (b : Fin n) (c : Fin k) :
    d.lhsIdx (ix2 a b) ((contrEquiv1 d k (contr_rank d hlc) (contr_size d hlc)).symm c) = ix2 c a := by
  funext ax; apply Fin.ext
  match ax with
  | ⟨0, _⟩ =>
    exact (d.lhsIdx_val_of_single hlc _ _).trans (contrEquiv1_symm_val d k (contr_rank d hlc) (contr_size d hlc) c)
  | ⟨1, _⟩ =>
    have hb : (1 : Fin 2) ∉ d.lhsBatch := by rw [hlb]; simp
    have hn : (1 : Fin 2) ∈ d.lhsNonContracting := by rw [hln]; simp
    show (d.lhsIdx (ix2 a b) _ (1 : Fin 2)).val = a.val
    unfold DotDims.lhsIdx
    rw [dif_neg hb, dif_pos hn]
    simp only [Fin.val_cast]
    exact coord_congr (s := ⟨2, ![m, n]⟩) (ix2 a b) _ 0 _ (show 0 < 2 by omega) (by simp [hlb, hln])

/-- The right operand's index there is (c, b). -/
theorem rhsIdx_eq (hlc : d.lhsContracting = [0]) (hrc : d.rhsContracting = [0]) (hln : d.lhsNonContracting = [1])
    (hrn : d.rhsNonContracting = [1]) (hlb : d.lhsBatch = []) (hrb : d.rhsBatch = [])
    (a : Fin m) (b : Fin n) (c : Fin k) :
    d.rhsIdx (ix2 a b) ((contrEquiv1 d k (contr_rank d hlc) (contr_size d hlc)).symm c) = ix2 c b := by
  funext ax; apply Fin.ext
  match ax with
  | ⟨0, _⟩ =>
    exact (d.rhsIdx_val_of_single hrc _ _).trans (contrEquiv1_symm_val d k (contr_rank d hlc) (contr_size d hlc) c)
  | ⟨1, _⟩ =>
    have hb : (1 : Fin 2) ∉ d.rhsBatch := by rw [hrb]; simp
    have hn : (1 : Fin 2) ∈ d.rhsNonContracting := by rw [hrn]; simp
    show (d.rhsIdx (ix2 a b) _ (1 : Fin 2)).val = b.val
    unfold DotDims.rhsIdx
    rw [dif_neg hb, dif_pos hn]
    simp only [Fin.val_cast]
    exact coord_congr (s := ⟨2, ![m, n]⟩) (ix2 a b) _ 1 _ (show 1 < 2 by omega) (by simp [hlb, hln, hrn])

/-- The product Aᵀ · B into a zero accumulator, at the ideal values, read at (a, b): Σ_c A (c, a) · B (c, b). -/
theorem matmul_tn_zero_apply {φ₁ φ₂ : FTy} (hlc : d.lhsContracting = [0]) (hrc : d.rhsContracting = [0])
    (hln : d.lhsNonContracting = [1]) (hrn : d.rhsNonContracting = [1]) (hlb : d.lhsBatch = []) (hrb : d.rhsBatch = [])
    (prec : Option ContractPrecision) (A : FVec Ideal ⟨2, ![k, m]⟩ φ₁) (B : FVec Ideal ⟨2, ![k, n]⟩ φ₂)
    (a : Fin m) (b : Fin n) :
    FloatOps.matmul d prec A B (constant ⟨2, ![m, n]⟩ .f32 0x00000000#32) (ix2 a b)
      = ∑ c : Fin k, A (ix2 c a) * B (ix2 c b) := by
  rw [Ideal.matmul_constant_zero_apply,
    ← Equiv.sum_comp (contrEquiv1 d k (contr_rank d hlc) (contr_size d hlc)).symm]
  refine Finset.sum_congr rfl fun c _ => ?_
  rw [lhsIdx_eq d hlc hln hlb, rhsIdx_eq d hlc hrc hln hrn hlb hrb]

end

end Cert.LibMatmulTN

end
-- ==== Proof.KIdx.lean ====
/-
  The body's values read at an index, at the ideal instance.

  Over the extended reals: the reset block is zero everywhere; a trip of the loop adds, at (i, d), the sum over the
  chunk's 64 tokens of protein i's feature d; so the token sums after the eight trips are, at (i, d), the sum over the
  eight chunks of the chunk sums; and a point's update of a block xo holds, at (b, d), xo's entry plus the sum over the
  point's 32 proteins i of  H (i, b) · sums (i, d)  — the product Hᵀ · sums of the selection rows and the token sums.
-/
import proofs.«420036_j39754217292264_3_alg».proof.Proof.KAcc
import proofs.«420036_j39754217292264_3_alg».proof.Proof.LibMatmulTN
import Idealize.ShloMosaic.Lib.ValueLayout
import Idealize.ShloMosaic.Lib.ValueIdx
import Idealize.ShloMosaic.PureOps.Ideal.Laws
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

open Idealize.ShloMosaic.ValueIdx
open scoped BigOperators

/-- The loop makes eight trips. -/
theorem trips_eq : k0_t1_loop.trips = 8 := by decide

/-- The reset block is zero. -/
theorem pay1_apply (u : Fin 1) (b d : Fin 256) : k0_pay1 (F := Ideal) (ix3 u b d) = 0 := by
  unfold k0_pay1
  refine (shapeCast_ab_1ab_apply _ _ u b d).trans ?_
  exact Ideal.ofBits_zero_f32

/-- The loop's initial token sums are zero. -/
theorem pay2_apply (i : Fin 32) (d : Fin 256) : k0_pay2 (F := Ideal) (ix2 i d) = 0 := Ideal.ofBits_zero_f32

/-- Source index (i, l, d) of the chunk over result index (i, d). -/
theorem lift_chunk (h : S32x64x256.Reduces [1] S32x256) (i : Fin 32) (d : Fin 256) (l : Fin (S32x64x256.size 1)) :
    h.lift (ix2 i d) l = ix3 i (⟨l.val, l.isLt⟩ : Fin 64) d := by
  funext c; apply Fin.ext
  fin_cases c <;> rfl

/-- One trip: the running sums plus the chunk's sum over its 64 tokens. -/
theorem pay3_apply (acc : FVec Ideal S32x256 .f32) (v18 : Vec Ideal S32x64x256 .f32) (i : Fin 32) (d : Fin 256) :
    k0_pay3 acc v18 (ix2 i d) = acc (ix2 i d) + ∑ l : Fin 64, v18 (ix3 i l d) := by
  unfold k0_pay3
  refine congrArg (acc (ix2 i d) + ·) ?_
  refine (Ideal.multiReduction_add_single v18 0x00000000#32 reduces_S32x64x256_S32x256 (.inl rfl) rfl (ix2 i d)).trans ?_
  exact Finset.sum_congr rfl fun l _ => congrArg v18 (lift_chunk _ i d l)

/-- Chunk k of a block at (i, l, d) is the block at token 64k + l. -/
theorem chunk_apply (X : Vec Ideal S32x512x256 .f32) (k : Fin k0_t1_loop.trips) (i : Fin 32) (l : Fin 64) (d : Fin 256) :
    chunk X k (ix3 i l d)
      = X (ix3 i (⟨64 * k.val + l.val, by have := lt_of_lt_of_eq k.isLt trips_eq; omega⟩ : Fin 512) d) := by
  show X ((Rect.unit (s := S32x512x256) (k0_off1 k) S32x64x256.size (k0_off1_inb k)).idx (ix3 i l d)) = _
  congr 1
  funext a; apply Fin.ext
  fin_cases a
  · rw [LoadRect.idx_apply]; simp [Rect.unit, k0_off1_eq k]
  · rw [LoadRect.idx_apply]; simp [Rect.unit, k0_off1_eq k]
  · rw [LoadRect.idx_apply]; simp [Rect.unit, k0_off1_eq k]

/-- The sum of chunk k of protein i's feature d; zero past the eighth chunk. -/
def chunkSum (X : Vec Ideal S32x512x256 .f32) (i : Fin 32) (d : Fin 256) (k : ℕ) : EReal :=
  if h : k < 8 then ∑ l : Fin 64, X (ix3 i (⟨64 * k + l.val, by omega⟩ : Fin 512) d) else 0

/-- The running token sums before trip k are the sums of the chunks before k. -/
theorem sumsBefore_apply (X : Vec Ideal S32x512x256 .f32) (i : Fin 32) (d : Fin 256) :
    ∀ k : ℕ, k ≤ 8 → sumsBefore X k (ix2 i d) = ∑ k' ∈ Finset.range k, chunkSum X i d k'
  | 0, _ => by rw [Finset.range_zero, Finset.sum_empty]; exact pay2_apply i d
  | k + 1, hk => by
    have hk' : k < k0_t1_loop.trips := by rw [trips_eq]; omega
    rw [sumsBefore, dif_pos hk', Finset.sum_range_succ, pay3_apply, sumsBefore_apply X i d k (by omega)]
    refine congrArg (_ + ·) ?_
    rw [chunkSum, dif_pos (by omega)]
    exact Finset.sum_congr rfl fun l _ => chunk_apply X ⟨k, hk'⟩ i l d

/-- The token sums after the loop, at (i, d): the sum over the eight chunks of the chunk sums. -/
theorem tokenSums_apply (X : Vec Ideal S32x512x256 .f32) (i : Fin 32) (d : Fin 256) :
    tokenSums X (ix2 i d)
      = ∑ k : Fin 8, ∑ l : Fin 64, X (ix3 i (⟨64 * k.val + l.val, by omega⟩ : Fin 512) d) := by
  show sumsBefore X k0_t1_loop.trips (ix2 i d) = _
  rw [trips_eq, sumsBefore_apply X i d 8 le_rfl, Finset.sum_range]
  exact Finset.sum_congr rfl fun k _ => by rw [chunkSum, dif_pos k.isLt]

/-- A point's update of xo at (b, d): xo's entry plus Σ_i H (i, b) · sums (i, d). -/
theorem pay4_apply (v5 : FVec Ideal S32x256 .f32) (v6 : Vec Ideal S32x256 .f32) (v9 : Vec Ideal S1x256x256 .f32)
    (u : Fin 1) (b d : Fin 256) :
    k0_pay4 v5 v6 v9 (ix3 u b d) = v9 (ix3 (0 : Fin 1) b d) + ∑ i : Fin 32, v6 (ix2 i b) * v5 (ix2 i d) := by
  unfold k0_pay4
  refine (shapeCast_ab_1ab_apply _ _ u b d).trans ?_
  refine (addf_apply _ _ (ix2 b d)).trans ?_
  rw [shapeCast_1ab_ab_apply, shapeCast_self]
  refine congrArg (v9 (ix3 (0 : Fin 1) b d) + ·) ?_
  exact Cert.LibMatmulTN.matmul_tn_zero_apply dot_S32x256_S32x256_S256x256_0_0_1_1_n_n rfl rfl rfl rfl rfl rfl
    (some .fp32) v6 v5 b d

end Cert.KernelIdeal.PoolValue

end
-- ==== Proof.PoolSpec.lean ====
/-
  Mean pooling of token embeddings by segment, as one function of the two argument arrays.

  x is the [2048 × 512 × 256] array of embeddings (protein n, token l, feature d) and key the [2048] array of segment
  ids. The proteins of segment b are those whose id, read signed, is b. The pooled mean of segment b at feature d is

      ( ∑ over the proteins n of segment b, ∑ over the 512 tokens l, x (n, l, d) ) / ( 512 · #proteins of segment b ),

  the quotient being the host's quotient on the extended reals. Both programs are shown to compute this function:
  the reference by scattering the 2048·512 token rows into 256 segment rows and counting them, the kernel by
  multiplying a one-hot [2048 × 256] selection matrix with the per-protein token sums, tile by tile.
-/
import Idealize.ShloMosaic.PureOps.Ideal
import Idealize.ShloMosaic.Lib.ValueIdx

open scoped BigOperators

noncomputable section

namespace Cert.Pool

open Idealize.ShloMosaic Idealize.ShloMosaic.ValueIdx

/-- The embeddings' shape, the ids' shape, the result's shape. -/
abbrev SX : Shape := ⟨3, ![2048, 512, 256]⟩
abbrev SK : Shape := ⟨1, ![2048]⟩
abbrev SO : Shape := ⟨2, ![256, 256]⟩

/-- The proteins of segment b: those whose id, read signed, is b. -/
def seg (key : IVec SK 32) (b : Fin 256) : Finset (Fin 2048) :=
  Finset.univ.filter fun n : Fin 2048 => (key (ix1 n)).toInt = (b.val : ℤ)

/-- The sum of feature d over all tokens of all proteins of segment b. -/
def num (x : FVec Ideal SX .f32) (key : IVec SK 32) (b d : Fin 256) : EReal :=
  ∑ n ∈ seg key b, ∑ l : Fin 512, x (ix3 n l d)

/-- The number of tokens of segment b: 512 for each of its proteins. -/
def den (key : IVec SK 32) (b : Fin 256) : EReal := (((seg key b).card * 512 : ℕ) : ℝ)

/-- The pooled means. -/
def pooled (x : FVec Ideal SX .f32) (key : IVec SK 32) : FVec Ideal SO .f32 :=
  fun i => FloatOps.hostDivf (φ := .f32) (num x key (i 0) (i 1)) (den key (i 0))

theorem pooled_apply (x : FVec Ideal SX .f32) (key : IVec SK 32) (b d : Fin 256) :
    pooled x key (ix2 b d) = FloatOps.hostDivf (φ := .f32) (num x key b d) (den key b) := rfl

end Cert.Pool

end
-- ==== Proof.PoolTiles.lean ====
/-
  The tiling of the 2048 proteins by the kernel's grid, and the one-hot selection matrix.

  The grid has 64 points, point t = 32·core + j for core < 2 and j < 32; point t holds proteins 32·t … 32·t + 31.
  The selection matrix has a 1 at (n, b) when protein n's id is the word b, else 0.
-/
import proofs.«420036_j39754217292264_3_alg».proof.Proof.PoolSpec

noncomputable section

namespace Cert.Pool

open Idealize.ShloMosaic Idealize.ShloMosaic.ValueIdx

/-- Protein i of grid point t. -/
def row (t : Fin 64) (i : Fin 32) : Fin 2048 := ⟨32 * t.val + i.val, by omega⟩

/-- Grid point j of core's row of the grid. -/
def pt (core : Fin 2) (j : Fin 32) : Fin 64 := ⟨32 * core.val + j.val, by omega⟩

/-- The selection matrix: 1 where protein n's id is the word b. -/
def oneHot (key : IVec SK 32) (n : Fin 2048) (b : Fin 256) : EReal :=
  if key (ix1 n) = BitVec.ofNat 32 b.val then 1 else 0

/-- The sum of feature d over the 512 tokens of protein n. -/
def tokSum (x : FVec Ideal SX .f32) (n : Fin 2048) (d : Fin 256) : EReal := ∑ l : Fin 512, x (ix3 n l d)

/-- What grid point t adds to the output block at (b, d): the selected token sums of its 32 proteins. -/
def tile (x : FVec Ideal SX .f32) (key : IVec SK 32) (t : Fin 64) (b d : Fin 256) : EReal :=
  ∑ i : Fin 32, oneHot key (row t i) b * tokSum x (row t i) d

end Cert.Pool

end
-- ==== Proof.KBlocks.lean ====
/-
  What the kernel's two input windows read at a grid point.

  Grid point t stages proteins 32·t … 32·t + 31. Window 0 reads that slab of the embeddings. Window 1 reads the same
  rows of the selection matrix, which the host computes before the region from the ids: the ids laid along the rows of a
  [2048 × 256] rectangle, the positions 0 … 255 along its columns, compared for equality and the comparison bit
  converted to a float — 1 where protein n's id is the word b, else 0.
-/
import proofs.«420036_j39754217292264_3_alg».proof.Proof.Gen.KernelIdeal.Frame
import proofs.«420036_j39754217292264_3_alg».proof.Proof.PoolTiles
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.StableHlo.Run
import Idealize.ShloMosaic.Lib.Tactic

set_option maxRecDepth 16384

noncomputable section

namespace Cert.KernelIdeal.PoolValue

open Cert.KernelIdeal Cert.KernelIdeal.Gen
open Idealize.ShloMosaic Idealize.ShloMosaic.TcCoe Idealize.ShloMosaic.ValueIdx Idealize.SL.Sem
open Idealize.ShloMosaic.StableHlo.Predicate

variable (m : (ℓ : Loc nD τ sig) → Buf (Elt Ideal) ℓ)

/-- Window 0's block index at point t is (t, 0, 0). -/
theorem index0 : ∀ t : Fin grid0.N, win0_0.index t (0 : Fin 3) = t.val ∧ win0_0.index t 1 = 0 ∧ win0_0.index t 2 = 0 := by
  decide +kernel

/-- Window 1's block index at point t is (t, 0). -/
theorem index1 : ∀ t : Fin grid0.N, win0_1.index t (0 : Fin 2) = t.val ∧ win0_1.index t 1 = 0 := by
  decide +kernel

/-- window 0's block at point t is proteins 32t … 32t+31 of the embeddings -/
theorem xblk_apply (c : Dev nD) (t : Fin cfg0.N) (i : Fin 32) (l : Fin 512) (d : Fin 256) :
    (iblk m c 0 t : Vec Ideal S32x512x256 .f32) (ix3 i l d)
      = (m ((c : Thread nD τ).loc main_arg0) : Vec Ideal S2048x512x256 .f32) (ix3 (Cert.Pool.row ⟨t.val, lt_of_lt_of_eq t.isLt N_0⟩ i) l d) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 32 + 1 * i.val = 32 * t.val + i.val; rw [h0]; omega
  | ⟨1, _⟩ => show win0_0.index t 1 * 512 + 1 * l.val = l.val; rw [h1]; omega
  | ⟨2, _⟩ => show win0_0.index t 2 * 256 + 1 * d.val = d.val; rw [h2]; omega

/-- The rank-1 index at coordinate p, in either of its two spellings. -/
theorem ofFin_eq_ix1 {n : Nat} (p : Fin n) : Shape.Idx.ofFin p = ix1 p := by
  funext a
  match a with
  | ⟨0, _⟩ => exact Fin.ext rfl

/-- The host's selection matrix, read at (n, b): 1 where the id of protein n is the word b, else 0. -/
theorem sel_apply (key : IVec S2048 32) (n : Fin 2048) (b : Fin 256) :
    (uitofp .f32 (cmpi .eq
        (broadcastInDim S2048x256 ![0, 1] bcast_S2048x1_S2048x256_0_1 (broadcastInDim S2048x1 ![0] bcast_S2048_S2048x1_0 key))
        (broadcastInDim S2048x256 ![0, 1] bcast_S1x256_S2048x256_0_1
          (broadcastInDim S1x256 ![1] bcast_S256_S1x256_1 (iotaInDim S256 32 0)))) : FVec Ideal S2048x256 .f32) (ij n b)
      = Cert.Pool.oneHot key n b := by
  show FloatOps.uitofp (F := Ideal) .f32 (IntOp.cmpi .eq _ _) = _
  rw [bcast_rows, bcast_cols, iota_apply, ofFin_eq_ix1]
  unfold Cert.Pool.oneHot
  by_cases hk : key (ix1 n) = BitVec.ofNat 32 b.val
  · rw [if_pos hk, cmpi_eq_iff.2 hk]
    show (((1#1 : BitVec 1).toNat : ℝ) : EReal) = 1
    simp
  · have hz : IntOp.cmpi .eq (key (ix1 n)) (BitVec.ofNat 32 b.val) = 0#1 :=
      eq_zero_of_ne_one (fun h => hk (cmpi_eq_iff.1 h))
    rw [if_neg hk, hz]
    show (((0#1 : BitVec 1).toNat : ℝ) : EReal) = 0
    simp

/-- The selection matrix as the host leaves it before the region. -/
theorem V_main_v6 (c : Dev nD) : (V m c main_v6 : S2048x256.Idx → EReal)
    = (uitofp .f32 (cmpi .eq
        (broadcastInDim S2048x256 ![0, 1] bcast_S2048x1_S2048x256_0_1
          (broadcastInDim S2048x1 ![0] bcast_S2048_S2048x1_0 (m ((c : Thread nD τ).loc main_arg1) : IVec S2048 32)))
        (broadcastInDim S2048x256 ![0, 1] bcast_S1x256_S2048x256_0_1
          (broadcastInDim S1x256 ![1] bcast_S256_S1x256_1 (iotaInDim S256 32 0)))) : FVec Ideal S2048x256 .f32) := by
  dsimp only [V, V0]
  simp only [hostOps0, List.flatten_cons, List.flatten_nil, List.append_nil, List.cons_append, List.nil_append]
  after_results

/-- window 1's block at point t is rows 32t … 32t+31 of the selection matrix -/
theorem hblk_apply (c : Dev nD) (t : Fin cfg0.N) (i : Fin 32) (b : Fin 256) :
    (iblk m c 1 t : Vec Ideal S32x256 .f32) (ix2 i b)
      = Cert.Pool.oneHot (m ((c : Thread nD τ).loc main_arg1)) (Cert.Pool.row ⟨t.val, lt_of_lt_of_eq t.isLt N_0⟩ i) b := by
  obtain ⟨h0, h1⟩ := index1 t
  unfold iblk
  rw [View.read_apply]
  show (V m c main_v6 : S2048x256.Idx → EReal) _ = _
  have hi : (V m c main_v6 : S2048x256.Idx → EReal) (((cfg0.win 1).blk t).view.emb (ix2 i b))
      = (V m c main_v6 : S2048x256.Idx → EReal) (ij (Cert.Pool.row ⟨t.val, lt_of_lt_of_eq t.isLt N_0⟩ i) b) := by
    congr 1
    funext a
    apply Fin.ext
    match a with
    | ⟨0, _⟩ => show win0_1.index t 0 * 32 + 1 * i.val = 32 * t.val + i.val; rw [h0]; omega
    | ⟨1, _⟩ => show win0_1.index t 1 * 256 + 1 * b.val = b.val; rw [h1]; omega
  rw [hi, V_main_v6, sel_apply]

/-- the ids reach the region as launched -/
theorem keys_kept (c : Dev nD) : V m c main_arg1 = m ((c : Thread nD τ).loc main_arg1) := V_main_arg1 m c

end Cert.KernelIdeal.PoolValue

end
-- ==== Proof.KMath.lean ====
/-
  The kernel's arithmetic, as identities of finite sums over the extended reals.

  A sum over 512 tokens is the sum of its 8 chunks of 64. The 2048 proteins are the 32 proteins of each of the 64 grid
  points, point 32·core + j for core < 2 and j < 32; multiplying a protein's token sum by its one-hot selection entry
  keeps it exactly when the protein is in the segment, so the grid points' contributions add up to the sum over the
  proteins of the segment: the numerator. A one for every protein of a nonempty segment, times 512, is at least 1: the
  denominator.
-/
import proofs.«420036_j39754217292264_3_alg».proof.Proof.PoolTiles
import Idealize.ShloMosaic.Lib.StableHlo.Predicate
import Mathlib.Algebra.BigOperators.Group.Finset.Basic
import Mathlib.Data.Fintype.BigOperators
import Mathlib.Logic.Equiv.Fin.Basic
import Mathlib.Data.EReal.Operations

open scoped BigOperators

noncomputable section

namespace Cert.Pool.Math

open Idealize.ShloMosaic Idealize.ShloMosaic.ValueIdx

/-! ## Sums over blocks -/

/-- A sum over a·b indices is the sum over a blocks of b: index b·k + l is entry l of block k. -/
theorem sum_blocks {M : Type} [AddCommMonoid M] {a b N : ℕ} (hN : a * b = N) (f : Fin N → M)
    (g : Fin a → Fin b → Fin N) (hg : ∀ k l, (g k l).val = b * k.val + l.val) :
    ∑ k : Fin a, ∑ l : Fin b, f (g k l) = ∑ p : Fin N, f p := by
  subst hN
  rw [← Equiv.sum_comp finProdFinEquiv f, Fintype.sum_prod_type]
  refine Finset.sum_congr rfl fun k _ => Finset.sum_congr rfl fun l _ => congrArg f (Fin.ext ?_)
  rw [hg, finProdFinEquiv_apply_val, Nat.add_comm]

/-- A sum over the 512 tokens is the sum of its 8 chunks of 64. -/
theorem sum_chunks (f : Fin 512 → EReal) :
    (∑ k : Fin 8, ∑ l : Fin 64, f ⟨64 * k.val + l.val, by omega⟩) = ∑ l : Fin 512, f l :=
  sum_blocks (a := 8) (b := 64) (by norm_num) f (fun k l => ⟨64 * k.val + l.val, by omega⟩) (fun _ _ => rfl)

/-- A sum over the 2048 proteins is the sum over the 2 · 32 grid points of the sum over their 32 proteins. -/
theorem sum_tiles (F : Fin 2048 → EReal) :
    (∑ core : Fin 2, ∑ j : Fin 32, ∑ i : Fin 32, F (row (pt core j) i)) = ∑ n : Fin 2048, F n :=
  (sum_blocks (a := 2) (b := 32) (N := 64) (by norm_num) (fun t => ∑ i : Fin 32, F (row t i)) pt
      (fun _ _ => rfl)).trans
    (sum_blocks (a := 64) (b := 32) (N := 2048) (by norm_num) F row (fun _ _ => rfl))

/-! ## The selection matrix -/

/-- A word is the word b < 256 exactly when, read signed, it is b. -/
theorem eq_ofNat_iff (w : BitVec 32) (b : Fin 256) : w = BitVec.ofNat 32 b.val ↔ w.toInt = (b.val : ℤ) := by
  have hb : b.val < 2 ^ 31 := by have := b.isLt; omega
  constructor
  · intro h; rw [h]; exact StableHlo.Predicate.toInt_ofNat_small b.val hb
  · intro h; apply BitVec.eq_of_toInt_eq; rw [h, StableHlo.Predicate.toInt_ofNat_small b.val hb]

/-- The selection entry times y: y when the protein is in the segment, else 0. -/
theorem oneHot_mul (key : IVec SK 32) (n : Fin 2048) (b : Fin 256) (y : EReal) :
    oneHot key n b * y = if (key (ix1 n)).toInt = (b.val : ℤ) then y else 0 := by
  unfold oneHot
  by_cases h : key (ix1 n) = BitVec.ofNat 32 b.val
  · rw [if_pos h, one_mul, if_pos ((eq_ofNat_iff _ b).1 h)]
  · rw [if_neg h, zero_mul, if_neg fun hm => h ((eq_ofNat_iff _ b).2 hm)]

/-! ## The numerator and the denominator -/

/-- The grid points' contributions add up to the numerator. -/
theorem num_eq_tiles (x : FVec Ideal Cert.Pool.SX .f32) (key : IVec Cert.Pool.SK 32) (b d : Fin 256) :
    (∑ core : Fin 2, ∑ j : Fin 32, Cert.Pool.tile x key (Cert.Pool.pt core j) b d) = Cert.Pool.num x key b d := by
  refine (sum_tiles (fun n => oneHot key n b * tokSum x n d)).trans ?_
  simp only [oneHot_mul]
  rw [← Finset.sum_filter]
  rfl

/-- A one for every protein of a nonempty segment, times 512, is at least 1, and is the denominator. -/
theorem den_eq (key : IVec Cert.Pool.SK 32) (b : Fin 256) (h : (Cert.Pool.seg key b).Nonempty) :
    max ((0 + ∑ n ∈ Finset.univ.filter (fun n : Fin 2048 => (key (ix1 n)).toInt = (b.val : ℤ)), (1 : EReal)) * ((512 : ℝ) : EReal)) 1
      = Cert.Pool.den key b := by
  have hc : 1 ≤ (seg key b).card := Finset.card_pos.2 h
  have hs : (0 + ∑ n ∈ Finset.univ.filter (fun n : Fin 2048 => (key (ix1 n)).toInt = (b.val : ℤ)), (1 : EReal))
      * ((512 : ℝ) : EReal) = den key b := by
    rw [zero_add, Finset.sum_const, EReal.nsmul_eq_mul, mul_one]
    show (((seg key b).card : ℕ) : EReal) * ((512 : ℝ) : EReal) = ((((seg key b).card * 512 : ℕ) : ℝ) : EReal)
    rw [← EReal.coe_coe_eq_natCast, ← EReal.coe_mul, Nat.cast_mul, Nat.cast_ofNat]
  have h1 : (1 : ℝ) ≤ (((seg key b).card * 512 : ℕ) : ℝ) := by
    exact_mod_cast (show 1 ≤ (seg key b).card * 512 by omega)
  rw [hs]
  apply max_eq_left
  unfold den
  rw [← EReal.coe_one, EReal.coe_le_coe_iff]
  exact h1

end Cert.Pool.Math

end
-- ==== Proof.KFinal.lean ====
/-
  The kernel's result array after the whole grid, at the ideal instance.

  After point n the output block holds, at (b, d), the sum of the tiles of points 32·(n / 32) … n, a tile being what
  one point adds: the selected token sums of its 32 proteins. The block of core q is written back once, after the last
  point 32·q + 31 of the core's row of the grid, and the two blocks tile the [2 × 256 × 256] result array. So the array
  ends holding, at (q, b, d), the sum over j < 32 of the tile of point 32·q + j.
-/
import proofs.«420036_j39754217292264_3_alg».proof.Proof.KIdx
import proofs.«420036_j39754217292264_3_alg».proof.Proof.KBlocks
import proofs.«420036_j39754217292264_3_alg».proof.Proof.KMath
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

open Idealize.ShloMosaic.ValueIdx
open scoped BigOperators

variable (m : (ℓ : Loc nD τ sig) → Buf (Elt Ideal) ℓ)

/-- The two argument arrays on core c. -/
abbrev embeds (c : Dev nD) : FVec Ideal Cert.Pool.SX .f32 := m ((c : Thread nD τ).loc main_arg0)
abbrev keys (c : Dev nD) : IVec Cert.Pool.SK 32 := m ((c : Thread nD τ).loc main_arg1)

/-- The token sums of block t at (i, d) are the token sum of protein 32t + i. -/
theorem tokenSums_xblk (c : Dev nD) (t : Fin cfg0.N) (i : Fin 32) (d : Fin 256) :
    tokenSums (xblk m c t) (ix2 i d)
      = Cert.Pool.tokSum (embeds m c) (Cert.Pool.row ⟨t.val, lt_of_lt_of_eq t.isLt N_0⟩ i) d := by
  rw [tokenSums_apply]
  unfold Cert.Pool.tokSum
  rw [← Cert.Pool.Math.sum_chunks]
  exact Finset.sum_congr rfl fun k _ => Finset.sum_congr rfl fun l _ => xblk_apply m c t i _ d

/-- Point t's update of xo at (b, d): xo's entry plus the tile of point t. -/
theorem step_apply (c : Dev nD) (t : Fin cfg0.N) (xo : Vec Ideal S1x256x256 .f32) (u : Fin 1) (b d : Fin 256) :
    step m c t xo (ix3 u b d)
      = xo (ix3 (0 : Fin 1) b d) + Cert.Pool.tile (embeds m c) (keys m c) ⟨t.val, lt_of_lt_of_eq t.isLt N_0⟩ b d := by
  show k0_pay4 (tokenSums (xblk m c t)) (hblk m c t) xo (ix3 u b d) = _
  rw [pay4_apply]
  refine congrArg (_ + ·) ?_
  unfold Cert.Pool.tile
  exact Finset.sum_congr rfl fun i _ => congrArg₂ (· * ·) (hblk_apply m c t i b) (tokenSums_xblk m c t i d)

/-- The tile of point s; zero past the grid. -/
def tileN (c : Dev nD) (b d : Fin 256) (s : ℕ) : EReal :=
  if h : s < 64 then Cert.Pool.tile (embeds m c) (keys m c) ⟨s, h⟩ b d else 0

/-- After point n the block holds the tiles of points 32·(n / 32) … n, summed. -/
theorem accAt_apply (c : Dev nD) (u : Fin 1) (b d : Fin 256) :
    ∀ (n : ℕ) (h : n < cfg0.N), accAt m c n h (ix3 u b d) = ∑ s ∈ Finset.Icc (32 * (n / 32)) n, tileN m c b d s
  | 0, h => by
    have h64 : (0 : ℕ) < 64 := by decide
    rw [accAt, step_apply, pay1_apply, zero_add]
    show _ = ∑ s ∈ Finset.Icc 0 0, tileN m c b d s
    rw [Finset.Icc_self, Finset.sum_singleton, tileN, dif_pos h64]
  | n + 1, h => by
    have h64 : n + 1 < 64 := lt_of_lt_of_eq h N_0
    by_cases h0 : (n + 1) % 32 = 0
    · rw [accAt_reset m c n h h0, step_apply, pay1_apply, zero_add]
      have e : 32 * ((n + 1) / 32) = n + 1 := by omega
      rw [e, Finset.Icc_self, Finset.sum_singleton, tileN, dif_pos h64]
    · rw [accAt_update m c n h h0, step_apply, accAt_apply c (0 : Fin 1) b d n (Nat.lt_of_succ_lt h)]
      have e : 32 * ((n + 1) / 32) = 32 * (n / 32) := by omega
      have hle : 32 * (n / 32) ≤ n + 1 := by omega
      rw [e, Finset.sum_Icc_succ_top hle, tileN, dif_pos h64]

/-- The result array: at (q, b, d) the sum over j < 32 of the tile of point 32·q + j. -/
def G (c : Dev nD) : Vec Ideal S2x256x256 .f32 :=
  fun i => ∑ j : Fin 32, Cert.Pool.tile (embeds m c) (keys m c) (Cert.Pool.pt (⟨(i 0).val, (i 0).isLt⟩ : Fin 2) j)
    (⟨(i 1).val, (i 1).isLt⟩ : Fin 256) (⟨(i 2).val, (i 2).isLt⟩ : Fin 256)

theorem G_apply (c : Dev nD) (q : Fin 2) (b d : Fin 256) :
    G m c (ix3 q b d) = ∑ j : Fin 32, Cert.Pool.tile (embeds m c) (keys m c) (Cert.Pool.pt q j) b d := rfl

/-- After the last point of core q's row of the grid, the block is row q of the result. -/
theorem acc_last (c : Dev nD) (t : Fin cfg0.N) (h31 : t.val % 32 = 31) (u : Fin 1) (b d : Fin 256) :
    accAt m c t.val t.isLt (ix3 u b d)
      = G m c (ix3 (⟨t.val / 32, by have := lt_of_lt_of_eq t.isLt N_0; omega⟩ : Fin 2) b d) := by
  have h64 : t.val < 64 := lt_of_lt_of_eq t.isLt N_0
  rw [accAt_apply, G_apply]
  have e1 : Finset.Icc (32 * (t.val / 32)) t.val = Finset.Ico (32 * (t.val / 32)) (32 * (t.val / 32) + 32) := by
    ext s; simp only [Finset.mem_Icc, Finset.mem_Ico]; omega
  rw [e1, Finset.sum_Ico_eq_sum_range, Nat.add_sub_cancel_left, ← Fin.sum_univ_eq_sum_range]
  refine Finset.sum_congr rfl fun j _ => ?_
  have hj : 32 * (t.val / 32) + j.val < 64 := by have := j.isLt; omega
  rw [tileN, dif_pos hj]
  rfl

/-- Window 2's block index at point t: core t / 32, the whole [256 × 256] face. -/
theorem index2 : ∀ t : Fin grid0.N, win0_2.index t (0 : Fin 3) = t.val / 32 ∧ win0_2.index t 1 = 0 ∧ win0_2.index t 2 = 0 := by
  decide +kernel

/-- What a writing-back point writes is its block of the result. -/
theorem flushed_eq (c : Dev nD) (t : Fin cfg0.N) (hf : (cfg0.win 2).flush t = true) :
    (dats m 0 c).flushed 2 t = ((cfg0.win 2).blk t).view.read (Elt Ideal) (G m c) := by
  have h31 : t.val % 32 = 31 := (flush0_2 t).mp hf
  obtain ⟨e0, e1, e2⟩ := index2 t
  show (cfg0.win 2).cut (grid0.coords t) ((dats m 0 c).after 2 t) = _
  rw [after0_2, outsAt_eq]
  funext y
  obtain ⟨u, b, d, rfl⟩ : ∃ (u : Fin 1) (b d : Fin 256), y = ix3 u b d := ⟨y 0, y 1, y 2, eq_ix3 y⟩
  show accAt m c t.val t.isLt (ix3 u b d) = G m c (((cfg0.win 2).blk t).view.emb (ix3 u b d))
  rw [acc_last m c t h31 u b d]
  refine congrArg (G m c) ?_
  funext a; apply Fin.ext
  match a with
  | ⟨0, _⟩ => show t.val / 32 = win0_2.index t (0 : Fin 3) * 1 + 1 * u.val; have := u.isLt; omega
  | ⟨1, _⟩ => show b.val = win0_2.index t (1 : Fin 3) * 256 + 1 * b.val; omega
  | ⟨2, _⟩ => show d.val = win0_2.index t (2 : Fin 3) * 256 + 1 * d.val; omega

/-- The last point of core q's row of the grid. -/
def lastPt (q : Fin 2) : Fin cfg0.N := ⟨32 * q.val + 31, by rw [show cfg0.N = 64 from N_0]; have := q.isLt; omega⟩

/-- So the result array ends holding G: every index lies in the block a writing-back point writes. -/
theorem final (c : Dev nD) : (dats m 0 c).arrAt 2 cfg0.N = G m c :=
  (dats m 0 c).arrAt_eq_of_cover 2 (G m c) (flushed_eq m c) fun i => by
    have hi0 : (i 0 : Nat) < 2 := (i 0).isLt
    have hi1 : (i 1 : Nat) < 256 := (i 1).isLt
    have hi2 : (i 2 : Nat) < 256 := (i 2).isLt
    refine ⟨lastPt ⟨(i 0).val, hi0⟩, (flush0_2 _).mpr (by show (32 * (i 0).val + 31) % 32 = 31; omega), ?_⟩
    obtain ⟨e0, e1, e2⟩ := index2 (lastPt ⟨(i 0).val, hi0⟩)
    have e0' : win0_2.index (lastPt ⟨(i 0).val, hi0⟩) (0 : Fin 3) = (i 0).val := by
      rw [e0]; show (32 * (i 0).val + 31) / 32 = (i 0).val; omega
    show i ∈ ((View.whole main_v7).slice (win0_2.rect (lastPt ⟨(i 0).val, hi0⟩))).set
    rw [View.set_slice_whole, Rect.mem_set_unit]
    intro a
    match a with
    | ⟨0, _⟩ =>
      show win0_2.index (lastPt ⟨(i 0).val, hi0⟩) 0 * 1 ≤ (i 0 : Nat) ∧ (i 0 : Nat) < win0_2.index (lastPt ⟨(i 0).val, hi0⟩) 0 * 1 + 1
      omega
    | ⟨1, _⟩ =>
      show win0_2.index (lastPt ⟨(i 0).val, hi0⟩) 1 * 256 ≤ (i 1 : Nat) ∧ (i 1 : Nat) < win0_2.index (lastPt ⟨(i 0).val, hi0⟩) 1 * 256 + 256
      omega
    | ⟨2, _⟩ =>
      show win0_2.index (lastPt ⟨(i 0).val, hi0⟩) 2 * 256 ≤ (i 2 : Nat) ∧ (i 2 : Nat) < win0_2.index (lastPt ⟨(i 0).val, hi0⟩) 2 * 256 + 256
      omega

end Cert.KernelIdeal.PoolValue

end
-- ==== Proof.LibScatterAddRows.lean ====
/-
  THE ACCUMULATING SCATTER BY ROWS, at the ideal instance.

  The scatter considered has an add body, scatter indices that are an [n × 1] column of row positions, operand axis 0
  inserted and start-indexed, and the remaining operand axes (none for a vector, axis 1 for a matrix of rows) as window
  axes: the accumulation x[idx[p]] += v[p] over all rows p. At the ideal instance the result is the exact sum: every
  operand element plus the sum of the update elements that land on it. An update element (p) resp. (p, q) lands on
  operand element (r) resp. (r, q) exactly when the start index of row p, read SIGNED and NOT clamped, is r; a start
  index outside the operand drops the update. So

    scatterAdd x idx upd (r)    = x (r)    + ∑ over rows p with idx[p] = r of upd (p),
    scatterAdd x idx upd (r, q) = x (r, q) + ∑ over rows p with idx[p] = r of upd (p, q).

  The proof: (1) for any dimension numbers, an update index lands on operand index i iff on every axis the start plus the
  window coordinate is i's coordinate; (2) at these dimension numbers the start on axis 0 is the row's start index and
  the window coordinate is 0 there, and on axis 1 (rows) the start is 0 and the window coordinate is the update's column;
  (3) the sum over the landing update indices is re-indexed by the row.
-/
import Idealize.ShloMosaic.PureOps.Ideal
import Idealize.ShloMosaic.Lib.ValueIdx
import Idealize.ShloMosaic.Lib.StableHlo.Predicate

open scoped BigOperators

namespace Cert.LibScatterAddRows

open Idealize.ShloMosaic Idealize.ShloMosaic.ValueIdx Idealize.ShloMosaic.StableHlo.Predicate

/-! ## Any dimension numbers: landing on an operand index, axis by axis -/

/-- An update index lands on operand index i exactly when, on every operand axis, the (signed, unclamped) start plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hc =>
      have h2 := congrArg Fin.val (congrFun (Option.some.inj h) a)
      simp only at h2
      have := hc a
      omega
    · cases h
  · intro h
    have hc : ∀ a, 0 ≤ d.start j idx a + (d.window j a : ℤ) ∧ d.start j idx a + (d.window j a : ℤ) < s.size a := fun a => by
      rw [h a]
      exact ⟨Int.natCast_nonneg _, by exact_mod_cast (i a).isLt⟩
    rw [dif_pos hc]
    congr 1
    funext a
    apply Fin.ext
    show (d.start j idx a + (d.window j a : ℤ)).toNat = (i a).val
    rw [h a]
    exact Int.toNat_natCast _

/-- The one entry of a one-element list. -/
theorem getElem_of_eq_singleton {α : Type} {l : List α} {x : α} (h : l = [x]) (k : Nat) (hk : k < l.length) :
    l[k] = x := by
  subst h
  have : k = 0 := by simpa using hk
  subst this
  rfl

/-! ## A vector scattered by a column of start indices -/

section Vec
variable {N n w : Nat} (d : ScatterDims ⟨1, ![N]⟩ ⟨2, ![n, 1]⟩ ⟨1, ![n]⟩)

/-- The start on the operand's one axis for update index j: row (j 0)'s start index, read signed. -/
theorem start_vec (hsd : d.scatterDimsToOperandDims = [0]) (hivd : d.indexVectorDim = 1)
    (j : (⟨1, ![n]⟩ : Shape).Idx) (idx : IVec ⟨2, ![n, 1]⟩ w) (a : Fin 1) :
    d.start j idx a = (idx (ixP (j 0))).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: no window coordinate. -/
theorem window_vec (hiw : d.insertedWindowDims = [0]) (j : (⟨1, ![n]⟩ : Shape).Idx) (a : Fin 1) : d.window j a = 0 := by
  have hk : a ∉ d.sKept := by
    have ha0 : a = 0 := Subsingleton.elim _ _
    subst ha0
    simp [ScatterDims.sKept, Shape.kept, hiw]
  unfold ScatterDims.window
  rw [dif_neg hk]

/-- Update index j lands on operand index i exactly when row (j 0)'s start index is i's coordinate. -/
theorem resultIdx?_vec (hiw : d.insertedWindowDims = [0]) (hsd : d.scatterDimsToOperandDims = [0])
    (hivd : d.indexVectorDim = 1) (j : (⟨1, ![n]⟩ : Shape).Idx) (idx : IVec ⟨2, ![n, 1]⟩ w) (i : (⟨1, ![N]⟩ : Shape).Idx) :
    d.resultIdx? j idx = some i ↔ (idx (ixP (j 0))).toInt = ((i 0).val : ℤ) := by
  rw [resultIdx?_eq_some_iff]
  constructor
  · intro h
    have := h 0
    rw [start_vec d hsd hivd, window_vec d hiw] at this
    simpa using this
  · intro h a
    have ha0 : a = 0 := Subsingleton.elim _ _
    subst ha0
    rw [start_vec d hsd hivd, window_vec d hiw]
    simpa using h

end Vec

section VecSum
variable {N n w : Nat} {φ : FTy}

/-- The accumulating scatter of a vector: entry r ends at its old value plus the sum of the updates whose (signed,
    unclamped) start index is r. -/
theorem scatterAdd_vec (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![n, 1]⟩ w) (upd : FVec Ideal ⟨1, ![n]⟩ φ) (r : Fin N) :
    Host.scatterAdd d x idx upd (ix1 r)
      = x (ix1 r) + ∑ p ∈ Finset.univ.filter (fun p : Fin n => (idx (ixP p)).toInt = (r.val : ℤ)), upd (ix1 p) := by
  show x (ix1 r) + ∑ j ∈ Finset.univ.filter (fun j => d.resultIdx? j idx = some (ix1 r)), upd j = _
  congr 1
  refine Finset.sum_bij' (fun j _ => (j 0 : Fin n)) (fun p _ => ix1 p) ?_ ?_ ?_ ?_ ?_
  · intro j hj
    exact Finset.mem_filter.2 ⟨Finset.mem_univ _,
      (resultIdx?_vec d hiw hsd hivd j idx (ix1 r)).1 (Finset.mem_filter.1 hj).2⟩
  · intro p _hp
    exact Finset.mem_filter.2 ⟨Finset.mem_univ _,
      (resultIdx?_vec d hiw hsd hivd (ix1 p) idx (ix1 r)).2 (Finset.mem_filter.1 _hp).2⟩
  · intro j _; exact (eq_ix1 j).symm
  · intro p _; rfl
  · intro j _; exact congrArg upd (eq_ix1 j)

end VecSum

/-! ## Rows scattered by a column of start indices -/

section Rows
variable {N C n w : Nat} (d : ScatterDims ⟨2, ![N, C]⟩ ⟨2, ![n, 1]⟩ ⟨2, ![n, C]⟩)

/-- The updates' one scatter axis is their axis 0 (axis 1 is the window axis). -/
theorem uScatter_rows (huw : d.updateWindowDims = [1]) : d.uScatter = [0] := by
  simp [ScatterDims.uScatter, Shape.kept, huw, List.finRange_succ]

/-- The operand's one kept axis is its axis 1 (axis 0 is inserted). -/
theorem sKept_rows (hiw : d.insertedWindowDims = [0]) : d.sKept = [1] := by
  simp [ScatterDims.sKept, Shape.kept, hiw, List.finRange_succ]

/-- The start on operand axis 0 for update index j: row (j 0)'s start index, read signed. -/
theorem start_rows_zero (huw : d.updateWindowDims = [1]) (hsd : d.scatterDimsToOperandDims = [0])
    (hivd : d.indexVectorDim = 1) (j : (⟨2, ![n, C]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact congrArg (fun a => (j a).val) (getElem_of_eq_singleton (uScatter_rows d huw) _ _)
  | ⟨1, _⟩ =>
    unfold ScatterDims.siIdx
    rw [dif_pos (by rw [hivd])]
    apply Fin.ext
    show List.idxOf (0 : Fin 2) d.scatterDimsToOperandDims = 0
    rw [hsd]; simp

/-- Operand axis 1 is not start-indexed: the start there is 0. -/
theorem start_rows_one (hsd : d.scatterDimsToOperandDims = [0]) (j : (⟨2, ![n, C]⟩ : Shape).Idx)
    (idx : IVec ⟨2, ![n, 1]⟩ w) : d.start j idx 1 = 0 := by
  unfold ScatterDims.start
  rw [dif_neg (by rw [hsd]; simp)]

/-- Operand axis 0 is inserted: no window coordinate. -/
theorem window_rows_zero (hiw : d.insertedWindowDims = [0]) (j : (⟨2, ![n, C]⟩ : Shape).Idx) : d.window j 0 = 0 := by
  unfold ScatterDims.window
  rw [dif_neg (by rw [sKept_rows d hiw]; simp)]

/-- On operand axis 1 the window coordinate is the update's column. -/
theorem window_rows_one (huw : d.updateWindowDims = [1]) (hiw : d.insertedWindowDims = [0])
    (j : (⟨2, ![n, C]⟩ : Shape).Idx) : d.window j 1 = (j 1).val := by
  unfold ScatterDims.window
  rw [dif_pos (by rw [sKept_rows d hiw]; simp)]
  exact congrArg (fun a => (j a).val) (getElem_of_eq_singleton huw _ _)

/-- Update index j lands on operand index i exactly when row (j 0)'s start index is i's row and j's column is i's. -/
theorem resultIdx?_rows (huw : d.updateWindowDims = [1]) (hiw : d.insertedWindowDims = [0])
    (hsd : d.scatterDimsToOperandDims = [0]) (hivd : d.indexVectorDim = 1)
    (j : (⟨2, ![n, C]⟩ : Shape).Idx) (idx : IVec ⟨2, ![n, 1]⟩ w) (i : (⟨2, ![N, C]⟩ : Shape).Idx) :
    d.resultIdx? j idx = some i ↔ (idx (ixP (j 0))).toInt = ((i 0).val : ℤ) ∧ (j 1).val = (i 1).val := by
  rw [resultIdx?_eq_some_iff]
  constructor
  · intro h
    have h0 := h 0
    have h1 := h 1
    rw [start_rows_zero d huw hsd hivd, window_rows_zero d hiw] at h0
    rw [start_rows_one d hsd, window_rows_one d huw hiw] at h1
    exact ⟨by simpa using h0, by exact_mod_cast (by simpa using h1 : ((j 1).val : ℤ) = ((i 1).val : ℤ))⟩
  · intro h a
    match a with
    | ⟨0, _⟩ =>
      show d.start j idx 0 + (d.window j 0 : ℤ) = ((i 0).val : ℤ)
      rw [start_rows_zero d huw hsd hivd, window_rows_zero d hiw]
      simpa using h.1
    | ⟨1, _⟩ =>
      show d.start j idx 1 + (d.window j 1 : ℤ) = ((i 1).val : ℤ)
      rw [start_rows_one d hsd, window_rows_one d huw hiw, h.2]
      simp

end Rows

section RowsSum
variable {N C n w : Nat} {φ : FTy}

/-- The accumulating scatter of rows: entry (r, q) ends at its old value plus the sum over the update rows whose start
    index is r of their entry in column q. -/
theorem scatterAdd_rows (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd d x idx upd (ix2 r q)
      = x (ix2 r q) + ∑ p ∈ Finset.univ.filter (fun p : Fin n => (idx (ixP p)).toInt = (r.val : ℤ)), upd (ix2 p q) := by
  show x (ix2 r q) + ∑ j ∈ Finset.univ.filter (fun j => d.resultIdx? j idx = some (ix2 r q)), upd j = _
  congr 1
  have hback : ∀ j : (⟨2, ![n, C]⟩ : Shape).Idx, d.resultIdx? j idx = some (ix2 r q) → ix2 (j 0 : Fin n) q = j := by
    intro j hj
    have h1 := ((resultIdx?_rows d huw hiw hsd hivd j idx (ix2 r q)).1 hj).2
    funext a
    match a with
    | ⟨0, _⟩ => rfl
    | ⟨1, _⟩ => exact Fin.ext h1.symm
  refine Finset.sum_bij' (fun j _ => (j 0 : Fin n)) (fun p _ => ix2 p q) ?_ ?_ ?_ ?_ ?_
  · intro j hj
    exact Finset.mem_filter.2 ⟨Finset.mem_univ _,
      ((resultIdx?_rows d huw hiw hsd hivd j idx (ix2 r q)).1 (Finset.mem_filter.1 hj).2).1⟩
  · intro p hp
    exact Finset.mem_filter.2 ⟨Finset.mem_univ _,
      (resultIdx?_rows d huw hiw hsd hivd (ix2 p q) idx (ix2 r q)).2 ⟨(Finset.mem_filter.1 hp).2, rfl⟩⟩
  · intro j hj; exact hback j (Finset.mem_filter.1 hj).2
  · intro p _; rfl
  · intro j hj; exact congrArg upd (hback j (Finset.mem_filter.1 hj).2).symm

end RowsSum

end Cert.LibScatterAddRows
-- ==== Proof.KTail.lean ====
/-
  The kernel program's host operations after its region, as one function of the region's result and the segment ids.

  The region leaves a [2 × 256 × 256] array G: one [256 × 256] partial sum per core. The host then adds the two partial
  sums, counts the proteins of each segment by accumulating a one per protein into a [256] array of zeros at the
  protein's segment id, multiplies the counts by 512, takes the larger of that and one, and divides the summed array,
  entry (b, d), by the result at b. Read at (b, d) at the ideal instance: the host's quotient of G (0, b, d) + G (1, b, d)
  by max (512 · #proteins of segment b, 1).
-/
import proofs.«420036_j39754217292264_3_alg».proof.Proof.Gen.KernelIdeal.Frame
import proofs.«420036_j39754217292264_3_alg».proof.Proof.LibScatterAddRows
import Idealize.ShloMosaic.Lib.Pipeline.Value
import Idealize.ShloMosaic.Lib.StableHlo.Run
import Idealize.ShloMosaic.Lib.StableHlo.Predicate
import Idealize.ShloMosaic.Lib.Tactic
import Idealize.ShloMosaic.Lib.ValueIdx
import Idealize.ShloMosaic.PureOps.Ideal.Laws

open scoped BigOperators

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]

/-- The host operations after the region as one function: the two cores' partial sums added, divided entry by entry
    by the larger of 512 times the segment's count of proteins and one. -/
def tailFn (G : Vec F S2x256x256 .f32) (key : IVec S2048 32) : FVec F S256x256 .f32 :=
  Host.divf (Host.reduceAdd G (constant S_ .f32 0x00000000#32) reducesTo_S2x256x256_S256x256_d0 h_S_)
    (broadcastInDim S256x256 ![0, 1] bcast_S256x1_S256x256_0_1 (broadcastInDim S256x1 ![0] bcast_S256_S256x1_0
      (maximumf (mulf (Host.scatterAdd scatter_S256_S2048x1_S2048_n_0_0_1 (broadcastInDim S256 ![] bcast_S_S256 (constant S_ .f32 0x00000000#32))
          (broadcastInDim S2048x1 ![0] bcast_S2048_S2048x1_0 key) (broadcastInDim S2048 ![] bcast_S_S2048 (constant S_ .f32 0x3F800000#32)))
        (broadcastInDim S256 ![] bcast_S_S256 (constant S_ .f32 0x44000000#32)))
      (broadcastInDim S256 ![] bcast_S_S256 (constant S_ .f32 0x3F800000#32)))))

/-- What the host operations after the region leave in the result buffer: the tail function of the region's result
    array and the segment ids as launched. -/
theorem tail_run (m : (ℓ : Loc nD τ sig) → Buf (Elt F) ℓ) (c : Dev nD) :
    Pipeline.afterTail₀ cfgs (dats m) 0 (V0 m) [hostOps1] c main_v19
      = tailFn ((dats m 0 c).arrAt 2 cfg0.N) (m ((c : Thread nD τ).loc main_arg1)) := by
  unfold Pipeline.afterTail₀
  show StableHlo.after hostOps1 _ (Proc.devRef .tc main_v19) = _
  after_results
  have hG : Pipeline.withArrays (cfgs 0).spec c (V0 m c) (fun w => (dats m 0 c).arrAt w (cfgs 0).N)
      (Proc.devRef .tc main_v7) = (dats m 0 c).arrAt 2 cfg0.N :=
    Pipeline.withArrays_arr spec0 launch0.win.arr_inj c _ _ 2
  have hK : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  rw [hG, hK]
  rfl

/-! ## The tail at the ideal instance, read at an index -/

section Apply

open Idealize.ShloMosaic.ValueIdx Idealize.ShloMosaic.StableHlo.Predicate Cert.LibScatterAddRows

namespace Tail

/-- The word 0x3F800000 is the float one. -/
theorem word_one : Ideal.ofBits .f32 0x3F800000#32 = 1 := by
  simp [Ideal.ofBits, Ideal.ieee, -EReal.coe_mul]; norm_num

/-- The word 0x44000000 is the float 512. -/
theorem word_512 : Ideal.ofBits .f32 0x44000000#32 = ((512 : ℝ) : EReal) := by
  simp [Ideal.ofBits, Ideal.ieee, -EReal.coe_mul]; norm_num

/-- The rank-1 index at coordinate p, in its two spellings. -/
theorem ofFin_eq_ix1 {n : Nat} (p : Fin n) : (Shape.Idx.ofFin p : (⟨1, ![n]⟩ : Shape).Idx) = ix1 p :=
  funext fun a => match a with | ⟨0, _⟩ => Fin.ext rfl

/-- The rank-2 index at coordinates (p, q), in its two spellings. -/
theorem ix2_eq_ij {n m : Nat} (p : Fin n) (q : Fin m) : (ix2 p q : (⟨2, ![n, m]⟩ : Shape).Idx) = ij p q :=
  funext fun a => match a with | ⟨0, _⟩ => rfl | ⟨1, _⟩ => rfl

/-- A constant scalar broadcast to any shape reads the constant's word everywhere. -/
theorem splat_apply {t : Shape} (h : S_.BroadcastsInDim t ![]) (w : BitVec 32) (j : t.Idx) :
    broadcastInDim t ![] h (constant (F := Ideal) S_ .f32 w) j = Ideal.ofBits .f32 w := rfl

/-- The two cores' partial sums added, at (b, d): zero plus the sum over the cores. -/
theorem sum_apply (G : Vec Ideal S2x256x256 .f32) (b d : Fin 256) :
    Host.reduceAdd (F := Ideal) G (constant S_ .f32 0x00000000#32) reducesTo_S2x256x256_S256x256_d0 h_S_ (ix2 b d)
      = 0 + ∑ core : Fin 2, G (ix3 core b d) := by
  have hR : S2x256x256.Reduces [0] S256x256 := by decide
  show Ideal.hostReduceAdd reducesTo_S2x256x256_S256x256_d0 G (Ideal.ofBits .f32 0x00000000#32) (ix2 b d) = _
  rw [Ideal.hostReduceAdd_single _ hR, Ideal.ofBits_zero_f32]
  congr 1
  refine Finset.sum_congr rfl fun k _ => congrArg G (funext fun a => ?_)
  match a with
  | ⟨0, _⟩ => exact Fin.ext rfl
  | ⟨1, _⟩ => exact Fin.ext rfl
  | ⟨2, _⟩ => exact Fin.ext rfl

/-- The segment ids as a column read, at row p, the id of protein p. -/
theorem key_col (key : IVec S2048 32) (p : Fin 2048) :
    broadcastInDim S2048x1 ![0] bcast_S2048_S2048x1_0 key (ixP p) = key (ix1 p) :=
  (bcast_col1 bcast_S2048_S2048x1_0 key p).trans (congrArg key (ofFin_eq_ix1 p))

/-- The count of segment b: zero plus a one for every protein whose id, read signed, is b. -/
theorem count_apply (key : IVec S2048 32) (b : Fin 256) :
    Host.scatterAdd (F := Ideal) scatter_S256_S2048x1_S2048_n_0_0_1
        (broadcastInDim S256 ![] bcast_S_S256 (constant S_ .f32 0x00000000#32))
        (broadcastInDim S2048x1 ![0] bcast_S2048_S2048x1_0 key)
        (broadcastInDim S2048 ![] bcast_S_S2048 (constant S_ .f32 0x3F800000#32)) (ix1 b)
      = 0 + ∑ n ∈ Finset.univ.filter (fun n : Fin 2048 => (key (ix1 n)).toInt = (b.val : ℤ)), (1 : EReal) := by
  rw [scatterAdd_vec _ rfl rfl rfl rfl]
  exact congrArg₂ (· + ·) ((splat_apply _ _ _).trans Ideal.ofBits_zero_f32)
    (Finset.sum_congr (Finset.filter_congr fun p _ => by rw [key_col]) fun p _ => (splat_apply _ _ _).trans word_one)

/-- The divisor at (b, d): the larger of 512 times the count of segment b and one. -/
theorem den_apply (key : IVec S2048 32) (b d : Fin 256) :
    broadcastInDim S256x256 ![0, 1] bcast_S256x1_S256x256_0_1 (broadcastInDim S256x1 ![0] bcast_S256_S256x1_0
      (maximumf (mulf (Host.scatterAdd (F := Ideal) scatter_S256_S2048x1_S2048_n_0_0_1 (broadcastInDim S256 ![] bcast_S_S256 (constant S_ .f32 0x00000000#32))
          (broadcastInDim S2048x1 ![0] bcast_S2048_S2048x1_0 key) (broadcastInDim S2048 ![] bcast_S_S2048 (constant S_ .f32 0x3F800000#32)))
        (broadcastInDim S256 ![] bcast_S_S256 (constant S_ .f32 0x44000000#32)))
      (broadcastInDim S256 ![] bcast_S_S256 (constant S_ .f32 0x3F800000#32)))) (ix2 b d)
      = max ((0 + ∑ n ∈ Finset.univ.filter (fun n : Fin 2048 => (key (ix1 n)).toInt = (b.val : ℤ)), (1 : EReal)) * ((512 : ℝ) : EReal)) 1 := by
  rw [ix2_eq_ij, bcast_rows, ofFin_eq_ix1]
  show max (Host.scatterAdd (F := Ideal) scatter_S256_S2048x1_S2048_n_0_0_1 _ _ _ (ix1 b) * Ideal.ofBits .f32 0x44000000#32)
      (Ideal.ofBits .f32 0x3F800000#32) = _
  rw [count_apply, word_512, word_one]

end Tail

open Tail in
/-- The tail at (b, d): the host's quotient of the two cores' partial sums added by the larger of 512 times the count
    of segment b and one. -/
theorem tailFn_apply (G : Vec Ideal S2x256x256 .f32) (key : IVec S2048 32) (b d : Fin 256) :
    tailFn (F := Ideal) G key (ix2 b d)
      = FloatOps.hostDivf (φ := .f32) (0 + ∑ core : Fin 2, G (ix3 core b d))
          (max ((0 + ∑ n ∈ Finset.univ.filter (fun n : Fin 2048 => (key (ix1 n)).toInt = (b.val : ℤ)), (1 : EReal)) * ((512 : ℝ) : EReal)) 1) :=
  congrArg₂ (FloatOps.hostDivf (φ := .f32)) (sum_apply G b d) (den_apply key b d)

end Apply

end Cert.KernelIdeal.PoolValue

end
-- ==== Proof.KRun.lean ====
/-
  The kernel program's run, read: its result is the pooled means.

  The host operations after the region sum the two cores' blocks and divide by  max (512 · count, 1).  The sum of the
  two blocks at (b, d) is the sum over all 64 grid points of their tiles, which is the sum over the proteins of segment
  b of their token sums; and where segment b has a protein, 512 · count is at least 1, so the guard is idle and the
  divisor is the number of tokens of the segment.
-/
import proofs.«420036_j39754217292264_3_alg».proof.Proof.KFinal
import proofs.«420036_j39754217292264_3_alg».proof.Proof.KTail
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

open Idealize.ShloMosaic.ValueIdx
open scoped BigOperators

variable (m : (ℓ : Loc nD τ sig) → Buf (Elt Ideal) ℓ) (ρ : Dev nD → PrngReg)

/-- The result buffer after the tail holds the pooled means, when no segment is empty. -/
theorem result_eq (c : Dev nD) (hne : ∀ b : Fin 256, (Cert.Pool.seg (keys m c) b).Nonempty) :
    Pipeline.afterTail₀ cfgs (dats m) 0 (V0 m) [hostOps1] c main_v19 = Cert.Pool.pooled (embeds m c) (keys m c) := by
  rw [tail_run, final]
  funext i
  obtain ⟨b, d, rfl⟩ : ∃ (b d : Fin 256), i = ix2 b d := ⟨i 0, i 1, eq_ix2 i⟩
  rw [tailFn_apply, Cert.Pool.pooled_apply, zero_add]
  refine congrArg₂ (FloatOps.hostDivf (φ := .f32)) ?_ ?_
  · simp only [G_apply]
    exact Cert.Pool.Math.num_eq_tiles (embeds m c) (keys m c) b d
  · exact Cert.Pool.Math.den_eq (keys m c) b (hne b)

/-- Every weakly fair execution of the kernel program terminates with the pooled means in its result buffer and its
    two arguments unchanged, when no segment is empty. -/
theorem run (hne : ∀ (c : Dev nD) (b : Fin 256), (Cert.Pool.seg (keys m c) b).Nonempty) :
    θ_run defs (onTc (τ := τ) (main (F := Ideal))) ⟨m, fun _ => 0, ρ⟩ fun r => ∀ c : Dev nD,
      r.2.mem ((c.tc : Thread nD τ).loc main_v19) = Cert.Pool.pooled (embeds m c) (keys m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v19 (Pipeline.mem_restRefs_of main_v19 (by decide) (by decide))).trans (result_eq m c (hne c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.PoolValue

end
-- ==== Proof.RefValue.lean ====
/-
  The reference program computes the pooled means.

  The reference reshapes the embeddings to 2048·512 token rows of 256 features, gives token row p = 512·n + l the
  segment id of its protein n = p / 512, and accumulates: a [256 × 256] array of zeros receives every token row at
  the row its id (read signed) names, and a [256] array of zeros receives a one for every token row likewise. Read at
  segment b, feature d, the first is the sum over the token rows of segment b of their feature d, the second the
  number of those rows. Re-indexing the token rows by (protein, token) turns the first into the sum over the proteins
  of segment b and their 512 tokens, and the second into 512 times the number of proteins of segment b. The result is
  the host's quotient of the two, entry by entry: the pooled mean.
-/
import proofs.«420036_j39754217292264_3_alg».proof.Proof.PoolSpec
import proofs.«420036_j39754217292264_3_alg».proof.Proof.LibScatterAddRows
import proofs.«420036_j39754217292264_3_alg».proof.Proof.Gen.ReferenceIdeal.Read
import Idealize.ShloMosaic.Lib.ValueIdx
import Idealize.ShloMosaic.PureOps.Ideal.Laws

open scoped BigOperators

noncomputable section

namespace Cert.Pool.Ref

open Idealize.ShloMosaic Idealize.ShloMosaic.ValueIdx Idealize.ShloMosaic.StableHlo.Predicate
open Cert.ReferenceIdeal Cert.ReferenceIdeal.Gen Cert.ReferenceIdeal.Read Cert.LibScatterAddRows

/-! ## Token rows and (protein, token) pairs -/

/-- The token row of token l of protein n: p = 512·n + l. -/
def tok (n : Fin 2048) (l : Fin 512) : Fin 1048576 :=
  ⟨n.val * 512 + l.val, by have := n.isLt; have := l.isLt; omega⟩

/-- The protein of token row p: p / 512. -/
def prot (p : Fin 1048576) : Fin 2048 := ⟨p.val / 512, by have := p.isLt; omega⟩

/-- The protein of token row 512·n + l is n. -/
theorem prot_tok (n : Fin 2048) (l : Fin 512) : prot (tok n l) = n := by
  have := n.isLt; have := l.isLt
  apply Fin.ext; show (n.val * 512 + l.val) / 512 = n.val; omega

/-- The token rows are the (protein, token) pairs. -/
def tokEquiv : Fin 2048 × Fin 512 ≃ Fin 1048576 where
  toFun q := tok q.1 q.2
  invFun p := (prot p, ⟨p.val % 512, Nat.mod_lt _ (by norm_num)⟩)
  left_inv q := by
    rcases q with ⟨n, l⟩
    have := n.isLt; have := l.isLt
    apply Prod.ext
    · apply Fin.ext; show (n.val * 512 + l.val) / 512 = n.val; omega
    · apply Fin.ext; show (n.val * 512 + l.val) % 512 = l.val; omega
  right_inv p := by
    apply Fin.ext; show p.val / 512 * 512 + p.val % 512 = p.val; omega

/-- A sum over the token rows whose protein is in segment b is the sum over the proteins of segment b of the sum over
    their 512 tokens. -/
theorem sum_tokens (key : IVec SK 32) (b : Fin 256) (f : Fin 1048576 → EReal) :
    ∑ p ∈ Finset.univ.filter (fun p : Fin 1048576 => (key (ix1 (prot p))).toInt = (b.val : ℤ)), f p
      = ∑ n ∈ seg key b, ∑ l : Fin 512, f (tok n l) := by
  unfold seg
  rw [Finset.sum_filter, Finset.sum_filter, ← Equiv.sum_comp tokEquiv, Fintype.sum_prod_type]
  refine Finset.sum_congr rfl fun n _ => ?_
  by_cases h : (key (ix1 n)).toInt = (b.val : ℤ)
  · rw [if_pos h]
    refine Finset.sum_congr rfl fun l _ => ?_
    show (if (key (ix1 (prot (tok n l)))).toInt = (b.val : ℤ) then f (tok n l) else 0) = f (tok n l)
    rw [prot_tok, if_pos h]
  · rw [if_neg h]
    refine Finset.sum_eq_zero fun l _ => ?_
    show (if (key (ix1 (prot (tok n l)))).toInt = (b.val : ℤ) then f (tok n l) else 0) = 0
    rw [prot_tok, if_neg h]

/-- A one for every token of every protein of a set: 512 times the set's size. -/
theorem sum_ones (s : Finset (Fin 2048)) :
    ∑ _n ∈ s, ∑ _l : Fin 512, (1 : EReal) = (((s.card * 512 : ℕ) : ℝ) : EReal) := by
  rw [Finset.sum_const, Finset.sum_const, Finset.card_univ, Fintype.card_fin, EReal.nsmul_eq_mul,
    EReal.nsmul_eq_mul, mul_one, ← EReal.natCast_mul]
  rfl

/-! ## The reference's stages at an index -/

/-- The start index of token row p (numerator scatter): the id of its protein. -/
theorem start_v4 (x1 : IVec SK 32) (p : Fin 1048576) :
    val_main_v4 (F := Ideal) x1 (ixP p) = x1 (ix1 (prot p)) := by
  rw [val_main_v4_apply, val_main_v2_apply, val_main_v1_apply]
  exact congrArg x1 (funext fun a => match a with | ⟨0, _⟩ => rfl)

/-- The start index of token row p (denominator scatter): the id of its protein. -/
theorem start_v8 (x1 : IVec SK 32) (p : Fin 1048576) :
    val_main_v8 (F := Ideal) x1 (ixP p) = x1 (ix1 (prot p)) := by
  rw [val_main_v8_apply, val_main_v2_apply, val_main_v1_apply]
  exact congrArg x1 (funext fun a => match a with | ⟨0, _⟩ => rfl)

/-- Token row 512·n + l at feature d is the embedding of protein n, token l, at feature d. -/
theorem upd_v0 (x0 : FVec Ideal SX .f32) (n : Fin 2048) (l : Fin 512) (d : Fin 256) :
    val_main_v0 (F := Ideal) x0 (ix2 (tok n l) d) = x0 (ix3 n l d) := by
  rw [val_main_v0_apply]
  refine congrArg x0 (funext fun a => ?_)
  have hn := n.isLt; have hl := l.isLt; have hd := d.isLt
  match a with
  | ⟨0, _⟩ => apply Fin.ext; show ((n.val * 512 + l.val) * 256 + d.val) / 131072 = n.val; omega
  | ⟨1, _⟩ => apply Fin.ext; show ((n.val * 512 + l.val) * 256 + d.val) / 256 % 512 = l.val; omega
  | ⟨2, _⟩ => apply Fin.ext; show ((n.val * 512 + l.val) * 256 + d.val) % 256 = d.val; omega

/-- The numerator's accumulator starts at zero. -/
theorem zero_v3 (i : S256x256.Idx) : val_main_v3 (F := Ideal) i = 0 := by
  rw [val_main_v3_apply, val_main_cst_apply, Ideal.ofBits_def, Ideal.ofBits_zero_f32]

/-- The denominator's accumulator starts at zero. -/
theorem zero_v7 (i : S256.Idx) : val_main_v7 (F := Ideal) i = 0 := by
  rw [val_main_v7_apply, val_main_cst_1_apply, Ideal.ofBits_def, Ideal.ofBits_zero_f32]

/-- The word 0x3F800000 is the float one. -/
theorem ofBits_one_f32 : Ideal.ofBits .f32 0x3F800000#32 = 1 := by
  simp [Ideal.ofBits, Ideal.ieee, -EReal.coe_mul]; norm_num

/-- Every token row contributes a one to the denominator. -/
theorem one_v6 (i : S1048576.Idx) : val_main_v6 (F := Ideal) i = 1 := by
  rw [val_main_v6_apply, val_main_cst_0_apply, Ideal.ofBits_def, ofBits_one_f32]

/-- The numerator at (b, d): the sum of feature d over all tokens of all proteins of segment b. -/
theorem num_v5 (x0 : FVec Ideal SX .f32) (x1 : IVec SK 32) (b d : Fin 256) :
    val_main_v5 (F := Ideal) x0 x1 (ix2 b d) = num x0 x1 b d := by
  unfold val_main_v5
  rw [scatterAdd_rows _ rfl rfl rfl rfl, zero_v3, zero_add]
  simp only [start_v4]
  rw [sum_tokens x1 b (fun p => val_main_v0 (F := Ideal) x0 (ix2 p d))]
  unfold num
  exact Finset.sum_congr rfl fun n _ => Finset.sum_congr rfl fun l _ => upd_v0 x0 n l d

/-- The count at b: the number of tokens of segment b. -/
theorem den_v9 (x1 : IVec SK 32) (b : Fin 256) :
    val_main_v9 (F := Ideal) x1 (ix1 b) = den x1 b := by
  unfold val_main_v9
  rw [scatterAdd_vec _ rfl rfl rfl rfl, zero_v7, zero_add]
  simp only [start_v8, one_v6]
  rw [sum_tokens x1 b (fun _ => 1)]
  exact sum_ones (seg x1 b)

/-- The denominator at (b, d): the count at b. -/
theorem den_v11 (x1 : IVec SK 32) (b d : Fin 256) :
    val_main_v11 (F := Ideal) x1 (ix2 b d) = den x1 b := by
  rw [val_main_v11_apply, val_main_v10_apply, ← den_v9]
  exact congrArg (val_main_v9 (F := Ideal) x1) (funext fun a => match a with | ⟨0, _⟩ => rfl)

/-! ## The reference's result -/

/-- The reference's result at (b, d) is the pooled mean of segment b at feature d. -/
theorem ref_apply (x0 : FVec Ideal SX .f32) (x1 : IVec SK 32) (b d : Fin 256) :
    val_main_v12 (F := Ideal) x0 x1 (ix2 b d) = pooled x0 x1 (ix2 b d) := by
  rw [val_main_v12_apply, num_v5, den_v11, pooled_apply]

/-- The reference's result is the array of pooled means. -/
theorem ref_eq (x0 : FVec Ideal Cert.Pool.SX .f32) (x1 : IVec Cert.Pool.SK 32) :
    Cert.ReferenceIdeal.Read.val_main_v12 (F := Ideal) x0 x1 = Cert.Pool.pooled x0 x1 := by
  funext i
  obtain ⟨b, d, rfl⟩ : ∃ b d : Fin 256, i = ix2 b d := ⟨i 0, i 1, eq_ix2 (n0 := 256) (n1 := 256) i⟩
  exact ref_apply x0 x1 b d

end Cert.Pool.Ref

end
-- ==== Proof.PreDecode.lean ====
/-
  The precondition, read back at one segment.

  The printed precondition is the conjunction of two bits. The second says: for every segment id q in [0, 256), the
  number of proteins p whose id key[p] equals q is at least 1. It is computed from the [2048 × 256] mask
  "key[p] = q" (the ids laid along the rows, the positions 0 … 255 laid along the columns, compared for equality),
  widened to 32-bit words and summed down each column, each sum compared signed against 1, the 256 comparison bits
  reduced by "and". Reading it back: the sum down column b is the number of set bits in that column, at most 2048 and
  so far below 2³¹, where the signed order is the order of the values; a count of at least 1 names a protein p with
  key[p] = the word of value b, whose signed reading is b since b < 256. Hence every segment has a protein.
-/
import proofs.«420036_j39754217292264_3_alg».proof.Proof.PoolSpec
import proofs.«420036_j39754217292264_3_alg».proof.Pre_finite_inputs
import proofs.«420036_j39754217292264_3_alg».proof.Proof.Gen.Pre_finite_inputs
import Idealize.ShloMosaic.Lib.StableHlo.Predicate
import Idealize.ShloMosaic.Lib.ReduceAll
import Idealize.ShloMosaic.Lib.ValueIdx

noncomputable section

namespace Cert.Pool.Pre

open Idealize.ShloMosaic Idealize.ShloMosaic.ValueIdx Idealize.ShloMosaic.StableHlo.Predicate
open Cert.Pre_finite_inputs

/-- The rank-1 index at coordinate p, in either of its two spellings. -/
theorem ofFin_eq_ix1 {n : Nat} (p : Fin n) : Shape.Idx.ofFin p = ix1 p := by
  funext a
  match a with
  | ⟨0, _⟩ => exact Fin.ext rfl

/-- The scalar shape has one index. -/
instance subsingleton_scalar_idx : Subsingleton S_.Idx := ⟨fun a b => funext fun d => d.elim0⟩

/-- The [2048 × 256] mask "key[p] = q". -/
def mask (key : IVec SK 32) : IVec S2048x256 1 :=
  cmpi .eq
    (broadcastInDim S2048x256 ![0, 1] Facts.bcast_S2048x1_S2048x256_0_1
      (broadcastInDim S2048x1 ![0] Facts.bcast_S2048_S2048x1_0 key))
    (broadcastInDim S2048x256 ![0, 1] Facts.bcast_S1x256_S2048x256_0_1
      (broadcastInDim S1x256 ![1] Facts.bcast_S256_S1x256_1 (iotaInDim S256 32 0)))

/-- The mask's bit at (p, b) is set exactly when key[p] is the word of value b. -/
theorem mask_apply (key : IVec SK 32) (p : Fin 2048) (b : Fin 256) :
    mask key (ij p b) = 1#1 ↔ key (ix1 p) = BitVec.ofNat 32 b.val := by
  show IntOp.cmpi .eq _ _ = 1#1 ↔ _
  rw [cmpi_eq_iff, bcast_rows, bcast_cols, iota_apply, ofFin_eq_ix1]

/-- A column whose count of set bits compares signed at least 1 has a set bit. -/
theorem exists_of_count_sge (key : IVec SK 32) (b : Fin 256)
    (hq : IntOp.cmpi .sge
      (Host.reduce IntOp.addi (extui 32 (mask key) Facts.natLt_1_32) (constantI S_ 32 0#32)
        Facts.reducesTo_S2048x256_S256_d0 Facts.h_S_ (ix1 b)) 1#32 = 1#1) :
    ∃ p : Fin 2048, mask key (ij p b) = 1#1 := by
  have hc := toNat_reduce_count_rows (n := 2048) (m := 256) (by norm_num) (mask key) Facts.natLt_1_32
    Facts.reducesTo_S2048x256_S256_d0 (u := S_) Facts.h_S_ (ix1 b)
  have hle : (Finset.univ.filter (fun p : Fin 2048 => mask key (ij p ((ix1 b : S256.Idx) 0)) = 1#1)).card ≤ 2048 := by
    have := Finset.card_le_univ (Finset.univ.filter (fun p : Fin 2048 => mask key (ij p ((ix1 b : S256.Idx) 0)) = 1#1))
    simpa using this
  have h1 : ((1#32 : BitVec 32)).toNat = 1 := by decide
  rw [sge_iff_toNat (by rw [hc]; omega) (by rw [h1]; norm_num), hc, h1] at hq
  obtain ⟨p, hp⟩ := Finset.card_pos.1 hq
  exact ⟨p, (Finset.mem_filter.1 hp).2⟩

/-- Under the precondition every segment id in [0, 256) is the id of some protein. -/
theorem seg_nonempty_of_pre (x : FVec Ideal Cert.Pool.SX .f32) (key : IVec Cert.Pool.SK 32)
    (h : Cert.Pre_finite_inputs.fn (F := Ideal) x key = fun _ => 1#1) (b : Fin 256) : (Cert.Pool.seg key b).Nonempty := by
  have h0 := congrFun h ix0
  dsimp only [Cert.Pre_finite_inputs.fn] at h0
  change IntOp.andi _ _ = 1#1 at h0
  obtain ⟨-, h14⟩ := IntOp.andi_eq_one.1 h0
  have hq := Host.reduce_andi_all _ _ _ _ _ h14 (ix1 b)
  obtain ⟨p, hp⟩ := exists_of_count_sge key b hq
  have hk : key (ix1 p) = BitVec.ofNat 32 b.val := (mask_apply key p b).1 hp
  refine ⟨p, Finset.mem_filter.2 ⟨Finset.mem_univ _, ?_⟩⟩
  rw [hk]
  exact toInt_ofNat_small b.val (by have := b.isLt; omega)

end Cert.Pool.Pre

end
-- ==== Proof.lean ====
/-
  Mean pooling of token embeddings per segment: the kernel against its reference, over the extended reals.

  The reference flattens the [2048 × 512 × 256] embeddings to 2048·512 token rows, scatter-adds them into 256 segment
  rows by each token's segment id (the protein's id repeated 512 times), counts the tokens of each segment the same way,
  and divides. The kernel forms, for each protein, the sum of its 512 token rows (a loop of eight chunks of 64 tokens),
  multiplies the one-hot [2048 × 256] selection matrix of the ids, transposed, with those sums — 32 proteins at a grid
  point, 32 points per core, each core accumulating into its own [256 × 256] block —, adds the two cores' blocks, and
  divides by  max (512 · count, 1).

  Both compute, at (b, d),  ( Σ over proteins n of segment b, Σ over tokens l, x (n, l, d) ) / ( 512 · #proteins of b ):
  sums over the extended reals are re-indexed freely (addition is a commutative monoid there, 1 · y = y, 0 · y = 0), so
  no finiteness of x is used. The two differ only where a segment is empty: there the reference divides 0 by 0 and the
  kernel's guard divides 0 by 1. The precondition says every segment id in [0, 256) occurs among the ids, which is where
  the reference's quotient is a number; under it the guard is idle.

  The three frames are the generated ones (the reference's is its generated run with the result dropped); the ideal
  pass rewrote nothing, so the kernel's idealization is the kernel read at the ideal instance.
-/
import proofs.«420036_j39754217292264_3_alg».proof.Defs
import proofs.«420036_j39754217292264_3_alg».proof.Proof.Gen.Kernel
import proofs.«420036_j39754217292264_3_alg».proof.Proof.Gen.Kernel.Skeleton
import proofs.«420036_j39754217292264_3_alg».proof.Proof.Gen.Kernel.Loops
import proofs.«420036_j39754217292264_3_alg».proof.Proof.Gen.Kernel.Launch
import proofs.«420036_j39754217292264_3_alg».proof.Proof.Gen.Kernel.Points
import proofs.«420036_j39754217292264_3_alg».proof.Proof.Gen.Kernel.Frame
import proofs.«420036_j39754217292264_3_alg».proof.Proof.Gen.KernelIdeal
import proofs.«420036_j39754217292264_3_alg».proof.Proof.Gen.KernelIdeal.Skeleton
import proofs.«420036_j39754217292264_3_alg».proof.Proof.Gen.KernelIdeal.Loops
import proofs.«420036_j39754217292264_3_alg».proof.Proof.Gen.KernelIdeal.Launch
import proofs.«420036_j39754217292264_3_alg».proof.Proof.Gen.KernelIdeal.Points
import proofs.«420036_j39754217292264_3_alg».proof.Proof.Gen.KernelIdeal.Frame
import proofs.«420036_j39754217292264_3_alg».proof.Proof.Gen.ReferenceIdeal
import proofs.«420036_j39754217292264_3_alg».proof.Proof.Gen.Pre_finite_inputs
import proofs.«420036_j39754217292264_3_alg».proof.Proof.Gen.ReferenceIdeal.Run
import proofs.«420036_j39754217292264_3_alg».proof.Proof.Gen.ReferenceIdeal.Read
import proofs.«420036_j39754217292264_3_alg».proof.Proof.KRun
import proofs.«420036_j39754217292264_3_alg».proof.Proof.RefValue
import proofs.«420036_j39754217292264_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the pooled means of the arguments: the kernel because the precondition leaves no segment
    empty, the reference always. -/
theorem algebraic : Cert.algebraic_KernelIdeal_ReferenceIdeal := by
  intro m ρ m' ρ' hpre hagree
  refine ⟨fun c => Cert.Pool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.PoolValue.run m ρ (fun c b => Cert.Pool.Pre.seg_nonempty_of_pre _ _ (hpre c) b), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.Pool.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
